-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S128 .f32) (main_arg6 : FVec F S128x40 .f32) (main_arg7 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x40 .f32 := Host.absf main_arg6
  let main_cst_8 : FVec F S_ .f32 := constant S_ .f32 0x7F800000#32
  let main_v25 : FVec F S128x40 .f32 := broadcastInDim S128x40 ![] bcast_S_S128x40 main_cst_8
  let main_v26 : IVec S128x40 1 := cmpf .olt main_v24 main_v25
  let main_c_9 : IVec S_ 1 := constantI S_ 1 1#1
  let main_v27 : IVec S_ 1 := (fun x v => Host.reduce IntOp.andi x v reducesTo_S128x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x40 .f32) (main_arg7 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S50000x40 : Shape := ⟨2, ![50000, 40]⟩
abbrev S5000x40 : Shape := ⟨2, ![5000, 40]⟩
abbrev S850000x40 : Shape := ⟨2, ![850000, 40]⟩
abbrev S1x40 : Shape := ⟨2, ![1, 40]⟩
abbrev S5000 : Shape := ⟨1, ![5000]⟩
abbrev S5000x1 : Shape := ⟨2, ![5000, 1]⟩

abbrev nBuf : Space → Nat
  | .hbm => 107
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x40, .f32⟩
  | .hbm, ⟨7, _⟩ => ⟨S40, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000, .f32⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000, .f32⟩
  | .hbm, ⟨49, _⟩ => ⟨S850000, .f32⟩
  | .hbm, ⟨50, _⟩ => ⟨S50000x128, .f32⟩
  | .hbm, ⟨51, _⟩ => ⟨S_, .i32⟩
  | .hbm, ⟨52, _⟩ => ⟨S850000, .i32⟩
  | .hbm, ⟨53, _⟩ => ⟨S850000, .i1⟩
  | .hbm, ⟨54, _⟩ => ⟨S_, .i32⟩
  | .hbm, ⟨55, _⟩ => ⟨S850000, .i32⟩
  | .hbm, ⟨56, _⟩ => ⟨S850000, .i32⟩
  | .hbm, ⟨57, _⟩ => ⟨S850000, .i32⟩
  | .hbm, ⟨58, _⟩ => ⟨S850000x1, .i32⟩
  | .hbm, ⟨59, _⟩ => ⟨S850000x128, .f32⟩
  | .hbm, ⟨60, _⟩ => ⟨S850000x1, .f32⟩
  | .hbm, ⟨61, _⟩ => ⟨S850000x128, .f32⟩
  | .hbm, ⟨62, _⟩ => ⟨S850000x128, .f32⟩
  | .hbm, ⟨63, _⟩ => ⟨S_, .f32⟩
  | .hbm, ⟨64, _⟩ => ⟨S50000x128, .f32⟩
  | .hbm, ⟨65, _⟩ => ⟨S850000x1, .i32⟩
  | .hbm, ⟨66, _⟩ => ⟨S50000x128, .f32⟩
  | .hbm, ⟨67, _⟩ => ⟨S1x128, .f32⟩
  | .hbm, ⟨68, _⟩ => ⟨S50000x128, .f32⟩
  | .hbm, ⟨69, _⟩ => ⟨S50000x128, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x128, .f32⟩
  | .hbm, ⟨79, _⟩ => ⟨S850000x1, .f32⟩
  | .hbm, ⟨80, _⟩ => ⟨S850000x128, .f32⟩
  | .hbm, ⟨81, _⟩ => ⟨S850000x128, .f32⟩
  | .hbm, ⟨82, _⟩ => ⟨S_, .f32⟩
  | .hbm, ⟨83, _⟩ => ⟨S50000x128, .f32⟩
  | .hbm, ⟨84, _⟩ => ⟨S850000x1, .i32⟩
  | .hbm, ⟨85, _⟩ => ⟨S50000x128, .f32⟩
  | .hbm, ⟨86, _⟩ => ⟨S1x128, .f32⟩
  | .hbm, ⟨87, _⟩ => ⟨S50000x128, .f32⟩
  | .hbm, ⟨88, _⟩ => ⟨S50000x40, .f32⟩
  | .hbm, ⟨89, _⟩ => ⟨S_, .i32⟩
  | .hbm, ⟨90, _⟩ => ⟨S850000, .i32⟩
  | .hbm, ⟨91, _⟩ => ⟨S850000, .i1⟩
  | .hbm, ⟨92, _⟩ => ⟨S_, .i32⟩
  | .hbm, ⟨93, _⟩ => ⟨S850000, .i32⟩
  | .hbm, ⟨94, _⟩ => ⟨S850000, .i32⟩
  | .hbm, ⟨95, _⟩ => ⟨S850000, .i32⟩
  | .hbm, ⟨96, _⟩ => ⟨S850000x1, .i32⟩
  | .hbm, ⟨97, _⟩ => ⟨S850000x40, .f32⟩
  | .hbm, ⟨98, _⟩ => ⟨S850000x1, .f32⟩
  | .hbm, ⟨99, _⟩ => ⟨S850000x40, .f32⟩
  | .hbm, ⟨100, _⟩ => ⟨S850000x40, .f32⟩
  | .hbm, ⟨101, _⟩ => ⟨S_, .f32⟩
  | .hbm, ⟨102, _⟩ => ⟨S50000x40, .f32⟩
  | .hbm, ⟨103, _⟩ => ⟨S850000x1, .i32⟩
  | .hbm, ⟨104, _⟩ => ⟨S50000x40, .f32⟩
  | .hbm, ⟨105, _⟩ => ⟨S1x40, .f32⟩
  | .hbm, ⟨106, _⟩ => ⟨S50000x40, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x40, .f32⟩
  | .local _ .vmem, ⟨23, _⟩ => ⟨S5000x40, .f32⟩
  | .local _ .vmem, ⟨24, _⟩ => ⟨S5000x40, .f32⟩
  | .local _ .vmem, ⟨25, _⟩ => ⟨S5000x40, .f32⟩
  | .local _ .vmem, ⟨26, _⟩ => ⟨S5000x40, .f32⟩
  | .local _ .vmem, ⟨27, _⟩ => ⟨S1x40, .f32⟩
  | .local _ .vmem, ⟨28, _⟩ => ⟨S5000x40, .f32⟩
  | .local _ .vmem, ⟨29, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_5 : Ref sig .tc := ⟨.hbm, 40, rfl⟩
abbrev main_v23 : Ref sig .tc := ⟨.hbm, 41, rfl⟩
abbrev main_v24 : Ref sig .tc := ⟨.hbm, 42, rfl⟩
abbrev main_c_6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_7 : Ref sig .tc := ⟨.hbm, 51, rfl⟩
abbrev main_v32 : Ref sig .tc := ⟨.hbm, 52, rfl⟩
abbrev main_v33 : Ref sig .tc := ⟨.hbm, 53, rfl⟩
abbrev main_c_8 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_9 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_c_11 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_15 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x40 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x40 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x40 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x40 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x40 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x40_S128x40_0_0 : ∀ a, (![0, 0] : Fin 2 → Nat) a + S128x40.size a ≤ S128x40.size a
  h_S128x40 : 0 < S128x40.numel
  inb_S5000x40_S5000x40_0_0 : ∀ a, (![0, 0] : Fin 2 → Nat) a + S5000x40.size a ≤ S5000x40.size a
  h_S5000x40 : 0 < S5000x40.numel
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  shapeCasts_S40_S1x40 : S40.ShapeCasts S1x40
  shapeCasts_S5000x40_S5000x40 : S5000x40.ShapeCasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x40_S5000x40_1_0_0_1_n_n_wf : DotDims.WF S5000x128 S128x40 S5000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x40.size a ≤ S128x40.size a
  hwx4_1 : ∀ i : grid4.Coords, EltTy.bits .f32 = 32 ∨ (Rect.block (s := S128x40) S128x40.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x40.size a ≤ S50000x40.size a
  hwx4_2 : ∀ i : grid4.Coords, EltTy.bits .f32 = 32 ∨ (Rect.block (s := S50000x40) S5000x40.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x40.size a ≤ S50000x40.size a
  hwx5_0 : ∀ i : grid5.Coords, EltTy.bits .f32 = 32 ∨ (Rect.block (s := S50000x40) S5000x40.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x40.size a ≤ S1x40.size a
  hwx5_1 : ∀ i : grid5.Coords, EltTy.bits .f32 = 32 ∨ (Rect.block (s := S1x40) S1x40.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x40.size a ≤ S50000x40.size a
  hwx5_2 : ∀ i : grid5.Coords, EltTy.bits .f32 = 32 ∨ (Rect.block (s := S50000x40) S5000x40.size (cc5_transform_2 i) (hinb5_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v62) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x40.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v63) S5000x40.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v76) S5000x40.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v77) S1x40.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v78) S5000x40.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x40 : Shape := ⟨2, ![50000, 40]⟩
abbrev S850000x40 : Shape := ⟨2, ![850000, 40]⟩
abbrev S1x40 : Shape := ⟨2, ![1, 40]⟩
abbrev S50000x1 : Shape := ⟨2, ![50000, 1]⟩

abbrev nBuf : Space → Nat
  | .hbm => 131
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S128x40, .f32⟩
  | 7 => ⟨S40, .f32⟩
  | 8 => ⟨S50000, .i32⟩
  | 9 => ⟨S1x800000, .i32⟩
  | 10 => ⟨S800000, .i32⟩
  | 11 => ⟨S850000, .i32⟩
  | 12 => ⟨S1x800000, .i32⟩
  | 13 => ⟨S800000, .i32⟩
  | 14 => ⟨S850000, .i32⟩
  | 15 => ⟨S_, .f32⟩
  | 16 => ⟨S850000, .f32⟩
  | 17 => ⟨S_, .f32⟩
  | 18 => ⟨S50000, .f32⟩
  | 19 => ⟨S850000x1, .i32⟩
  | 20 => ⟨S50000, .f32⟩
  | 21 => ⟨S_, .f32⟩
  | 22 => ⟨S50000, .f32⟩
  | 23 => ⟨S50000, .i1⟩
  | 24 => ⟨S_, .f32⟩
  | 25 => ⟨S50000, .f32⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S850000, .i32⟩
  | 33 => ⟨S850000, .i1⟩
  | 34 => ⟨S_, .i32⟩
  | 35 => ⟨S850000, .i32⟩
  | 36 => ⟨S850000, .i32⟩
  | 37 => ⟨S850000, .i32⟩
  | 38 => ⟨S850000x1, .i32⟩
  | 39 => ⟨S850000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S850000, .f32⟩
  | 50 => ⟨S50000x128, .f32⟩
  | 51 => ⟨S_, .i32⟩
  | 52 => ⟨S850000, .i32⟩
  | 53 => ⟨S850000, .i1⟩
  | 54 => ⟨S_, .i32⟩
  | 55 => ⟨S850000, .i32⟩
  | 56 => ⟨S850000, .i32⟩
  | 57 => ⟨S850000, .i32⟩
  | 58 => ⟨S850000x1, .i32⟩
  | 59 => ⟨S850000x128, .f32⟩
  | 60 => ⟨S850000x1, .f32⟩
  | 61 => ⟨S850000x128, .f32⟩
  | 62 => ⟨S850000x128, .f32⟩
  | 63 => ⟨S_, .f32⟩
  | 64 => ⟨S50000x128, .f32⟩
  | 65 => ⟨S850000x1, .i32⟩
  | 66 => ⟨S50000x128, .f32⟩
  | 67 => ⟨S1x128, .f32⟩
  | 68 => ⟨S50000x128, .f32⟩
  | 69 => ⟨S50000x128, .f32⟩
  | 70 => ⟨S_, .f32⟩
  | 71 => ⟨S50000x128, .f32⟩
  | 72 => ⟨S50000x128, .f32⟩
  | 73 => ⟨S50000x128, .f32⟩
  | 74 => ⟨S_, .i32⟩
  | 75 => ⟨S850000, .i32⟩
  | 76 => ⟨S850000, .i1⟩
  | 77 => ⟨S_, .i32⟩
  | 78 => ⟨S850000, .i32⟩
  | 79 => ⟨S850000, .i32⟩
  | 80 => ⟨S850000, .i32⟩
  | 81 => ⟨S850000x1, .i32⟩
  | 82 => ⟨S850000x128, .f32⟩
  | 83 => ⟨S850000x1, .f32⟩
  | 84 => ⟨S850000x128, .f32⟩
  | 85 => ⟨S850000x128, .f32⟩
  | 86 => ⟨S_, .f32⟩
  | 87 => ⟨S50000x128, .f32⟩
  | 88 => ⟨S850000x1, .i32⟩
  | 89 => ⟨S50000x128, .f32⟩
  | 90 => ⟨S1x128, .f32⟩
  | 91 => ⟨S50000x128, .f32⟩
  | 92 => ⟨S50000x128, .f32⟩
  | 93 => ⟨S_, .f32⟩
  | 94 => ⟨S50000x128, .f32⟩
  | 95 => ⟨S50000x128, .f32⟩
  | 96 => ⟨S50000x40, .f32⟩
  | 97 => ⟨S_, .i32⟩
  | 98 => ⟨S850000, .i32⟩
  | 99 => ⟨S850000, .i1⟩
  | 100 => ⟨S_, .i32⟩
  | 101 => ⟨S850000, .i32⟩
  | 102 => ⟨S850000, .i32⟩
  | 103 => ⟨S850000, .i32⟩
  | 104 => ⟨S850000x1, .i32⟩
  | 105 => ⟨S850000x40, .f32⟩
  | 106 => ⟨S850000x1, .f32⟩
  | 107 => ⟨S850000x40, .f32⟩
  | 108 => ⟨S850000x40, .f32⟩
  | 109 => ⟨S_, .f32⟩
  | 110 => ⟨S50000x40, .f32⟩
  | 111 => ⟨S850000x1, .i32⟩
  | 112 => ⟨S50000x40, .f32⟩
  | 113 => ⟨S1x40, .f32⟩
  | 114 => ⟨S50000x40, .f32⟩
  | 115 => ⟨S50000x40, .f32⟩
  | 116 => ⟨S_, .f32⟩
  | 117 => ⟨S50000, .f32⟩
  | 118 => ⟨S_, .f32⟩
  | 119 => ⟨S50000, .f32⟩
  | 120 => ⟨S50000, .f32⟩
  | 121 => ⟨S50000x1, .f32⟩
  | 122 => ⟨S50000x40, .f32⟩
  | 123 => ⟨S50000x40, .f32⟩
  | 124 => ⟨S50000x40, .f32⟩
  | 125 => ⟨S_, .f32⟩
  | 126 => ⟨S50000, .f32⟩
  | 127 => ⟨S50000x1, .f32⟩
  | _ => ⟨S50000x128, .f32⟩

abbrev hbmTy0_1 (i : Nat) : BufTy := match i % 128 with
  | 0 => ⟨S50000x1, .f32⟩
  | 1 => ⟨S50000x40, .f32⟩
  | 2 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_5 : Ref sig .tc := ⟨.hbm, 40, rfl⟩
abbrev main_v23 : Ref sig .tc := ⟨.hbm, 41, rfl⟩
abbrev main_v24 : Ref sig .tc := ⟨.hbm, 42, rfl⟩
abbrev main_c_6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_7 : Ref sig .tc := ⟨.hbm, 51, rfl⟩
abbrev main_v32 : Ref sig .tc := ⟨.hbm, 52, rfl⟩
abbrev main_v33 : Ref sig .tc := ⟨.hbm, 53, rfl⟩
abbrev main_c_8 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_9 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_call1_cst : Ref sig .tc := ⟨.hbm, 70, rfl⟩
abbrev main_call1_v0 : Ref sig .tc := ⟨.hbm, 71, rfl⟩
abbrev main_v48 : Ref sig .tc := ⟨.hbm, 72, rfl⟩
abbrev main_v49 : Ref sig .tc := ⟨.hbm, 73, rfl⟩
abbrev main_c_10 : Ref sig .tc := ⟨.hbm, 74, rfl⟩
abbrev main_v50 : Ref sig .tc := ⟨.hbm, 75, rfl⟩
abbrev main_v51 : Ref sig .tc := ⟨.hbm, 76, rfl⟩
abbrev main_c_11 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_12 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_call2_cst : Ref sig .tc := ⟨.hbm, 93, rfl⟩
abbrev main_call2_v0 : Ref sig .tc := ⟨.hbm, 94, rfl⟩
abbrev main_v66 : Ref sig .tc := ⟨.hbm, 95, rfl⟩
abbrev main_v67 : Ref sig .tc := ⟨.hbm, 96, rfl⟩
abbrev main_c_13 : Ref sig .tc := ⟨.hbm, 97, rfl⟩
abbrev main_v68 : Ref sig .tc := ⟨.hbm, 98, rfl⟩
abbrev main_v69 : Ref sig .tc := ⟨.hbm, 99, rfl⟩
abbrev main_c_14 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_15 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_call3_cst : Ref sig .tc := ⟨.hbm, 116, rfl⟩
abbrev main_call3_v0 : Ref sig .tc := ⟨.hbm, 117, rfl⟩
abbrev main_call3_cst_0 : Ref sig .tc := ⟨.hbm, 118, rfl⟩
abbrev main_call3_v1 : Ref sig .tc := ⟨.hbm, 119, rfl⟩
abbrev main_call3_v2 : Ref sig .tc := ⟨.hbm, 120, rfl⟩
abbrev main_call3_v3 : Ref sig .tc := ⟨.hbm, 121, rfl⟩
abbrev main_call3_v4 : Ref sig .tc := ⟨.hbm, 122, rfl⟩
abbrev main_call3_v5 : Ref sig .tc := ⟨.hbm, 123, rfl⟩
abbrev main_call3_v6 : Ref sig .tc := ⟨.hbm, 124, rfl⟩
abbrev main_call3_cst_1 : Ref sig .tc := ⟨.hbm, 125, rfl⟩
abbrev main_call3_v7 : Ref sig .tc := ⟨.hbm, 126, rfl⟩
abbrev main_call3_v8 : Ref sig .tc := ⟨.hbm, 127, rfl⟩
abbrev main_call3_v9 : Ref sig .tc := ⟨.hbm, 128, rfl⟩
abbrev main_call3_v10 : Ref sig .tc := ⟨.hbm, 129, rfl⟩
abbrev main_v84 : Ref sig .tc := ⟨.hbm, 130, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x40_S50000x40_1_0_0_1_n_n_wf : DotDims.WF S50000x128 S128x40 S50000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

class Facts : Prop extends Facts₀ where

variable [Facts]
-- ==== Proof.HostRead.lean ====
/-
  Reading a buffer after a line of host operations, when some operand sits inside a concatenate's operand list.

  The one-pass reading of a line of host operations rewrites every operation's result at its own buffer and leaves
  other buffers as they were; it does not reach inside the list of (shape, array) pairs a concatenate takes.  The
  loop below finishes those: it rewrites one operation's result at a time, wherever it stands.
-/
import Idealize.ShloMosaic.Lib.StableHlo.Run

namespace Cert.HostRead

open Idealize.ShloMosaic Idealize.ShloMosaic.StableHlo

/-- Rewrite, one at a time and anywhere in the goal, an operation's result at its own buffer to its function's value and
    at any other buffer to what was there before (the two buffers' inequality decided), until none is left. -/
macro "results_inside" : tactic =>
  `(tactic| repeat (first
      | rw [nullary_result] | rw [unary_result] | rw [binary_result] | rw [ternary_result] | rw [quaternary_result]
      | rw [reshape_result]
      | (rw [nullary_result_ne]; rotate_left; decide)
      | (rw [unary_result_ne]; rotate_left; decide)
      | (rw [binary_result_ne]; rotate_left; decide)
      | (rw [ternary_result_ne]; rotate_left; decide)
      | (rw [quaternary_result_ne]; rotate_left; decide)
      | (rw [reshape_result_ne]; rotate_left; decide)))

end Cert.HostRead
-- ==== Proof.RefPieces.lean ====
/-
  The reference's line of 123 host operations in four pieces, and what the first piece leaves.

  The line is read in four pieces: the edge bookkeeping (operations 1 to 42), then one piece per layer (23, 23 and
  35 operations, the last cut again before its 15 operations of log-softmax).  The contents at the end of each piece are named; at the end of the first the three edge arrays hold
  their stages of the edge list, and every other argument buffer is as it was.
-/
import proofs.«419310_j55920474193966_1_alg».proof.Proof.RefRun
import proofs.«419310_j55920474193966_1_alg».proof.Proof.RefRead
import proofs.«419310_j55920474193966_1_alg».proof.Proof.HostRead
import Idealize.ShloMosaic.Lib.StableHlo.Run
import Idealize.ShloMosaic.Lib.Pipeline.Frame

noncomputable section

namespace Cert.ReferenceIdeal.RunH

open Cert.ReferenceIdeal Cert.ReferenceIdeal.Gen Idealize.ShloMosaic Idealize.ShloMosaic.TcCoe Idealize.SL.Sem Idealize.ShloMosaic.StableHlo
open Cert.ReferenceIdeal.RunP (ops main_eq scopedRefs_eq scopedSems_eq ops_sub)
open Cert.ReferenceIdeal.ReadP (val_main_v3 val_main_v6 val_main_v30 val_main_v48 val_main_v66 val_main_v84)
open Cert.HostRead

variable {F : FTy → Type} [FloatOps F]

/-! ## The line in four pieces, and the contents at the end of each -/

/-- The line is its first 42 operations, then 23 (first layer), then 23 (second layer), then 20 (the output layer's biased logits), then the last 15 (the log-softmax). -/
theorem ops_split : (ops (F := F)) = (ops (F := F)).take 42 ++ (((ops (F := F)).drop 42).take 23 ++ (((ops (F := F)).drop 65).take 23 ++ (((ops (F := F)).drop 88).take 20 ++ (ops (F := F)).drop 108))) := rfl

variable (W : Valuation τ sig (Elt F))

/-- After the edge bookkeeping. -/
def U1 : Valuation τ sig (Elt F) := after ((ops (F := F)).take 42) W
/-- After the first layer. -/
def U2 : Valuation τ sig (Elt F) := after (((ops (F := F)).drop 42).take 23) (U1 W)
/-- After the second layer. -/
def U3 : Valuation τ sig (Elt F) := after (((ops (F := F)).drop 65).take 23) (U2 W)
/-- After the output layer's product, aggregation and bias. -/
def U4 : Valuation τ sig (Elt F) := after (((ops (F := F)).drop 88).take 20) (U3 W)
/-- After the log-softmax: the end of the line. -/
def U5 : Valuation τ sig (Elt F) := after ((ops (F := F)).drop 108) (U4 W)

theorem after_ops : after (ops (F := F)) W = U5 W := by
  rw [ops_split, StableHlo.after_append, StableHlo.after_append, StableHlo.after_append, StableHlo.after_append]
  rfl

/-! ## After the edge bookkeeping: the three edge arrays; the other arguments untouched -/

set_option maxRecDepth 8192 in
theorem U1_v3 : U1 W (Proc.devRef .tc main_v3) = val_main_v3 (F := F) (W (Proc.devRef .tc main_arg1)) := by
  unfold U1
  simp only [ops, List.take_succ_cons, List.take_zero, List.drop_succ_cons, List.drop_zero]
  after_results_simp
  results_inside
  rfl

set_option maxRecDepth 8192 in
theorem U1_v6 : U1 W (Proc.devRef .tc main_v6) = val_main_v6 (F := F) (W (Proc.devRef .tc main_arg1)) := by
  unfold U1
  simp only [ops, List.take_succ_cons, List.take_zero, List.drop_succ_cons, List.drop_zero]
  after_results_simp
  results_inside
  rfl

set_option maxRecDepth 8192 in
theorem U1_v30 : U1 W (Proc.devRef .tc main_v30) = val_main_v30 (F := F) (W (Proc.devRef .tc main_arg1)) := by
  unfold U1
  simp only [ops, List.take_succ_cons, List.take_zero, List.drop_succ_cons, List.drop_zero]
  after_results_simp
  results_inside
  (try simp only [TRef.ofBuf, TRef.toBuf, cast_eq])
  rfl

set_option maxRecDepth 8192 in
theorem U1_arg0 : U1 W (Proc.devRef .tc main_arg0) = W (Proc.devRef .tc main_arg0) := by
  unfold U1
  simp only [ops, List.take_succ_cons, List.take_zero, List.drop_succ_cons, List.drop_zero]
  after_results_simp <;> rfl

set_option maxRecDepth 8192 in
theorem U1_arg2 : U1 W (Proc.devRef .tc main_arg2) = W (Proc.devRef .tc main_arg2) := by
  unfold U1
  simp only [ops, List.take_succ_cons, List.take_zero, List.drop_succ_cons, List.drop_zero]
  after_results_simp <;> rfl

set_option maxRecDepth 8192 in
theorem U1_arg3 : U1 W (Proc.devRef .tc main_arg3) = W (Proc.devRef .tc main_arg3) := by
  unfold U1
  simp only [ops, List.take_succ_cons, List.take_zero, List.drop_succ_cons, List.drop_zero]
  after_results_simp <;> rfl

set_option maxRecDepth 8192 in
theorem U1_arg4 : U1 W (Proc.devRef .tc main_arg4) = W (Proc.devRef .tc main_arg4) := by
  unfold U1
  simp only [ops, List.take_succ_cons, List.take_zero, List.drop_succ_cons, List.drop_zero]
  after_results_simp <;> rfl

set_option maxRecDepth 8192 in
theorem U1_arg5 : U1 W (Proc.devRef .tc main_arg5) = W (Proc.devRef .tc main_arg5) := by
  unfold U1
  simp only [ops, List.take_succ_cons, List.take_zero, List.drop_succ_cons, List.drop_zero]
  after_results_simp <;> rfl

set_option maxRecDepth 8192 in
theorem U1_arg6 : U1 W (Proc.devRef .tc main_arg6) = W (Proc.devRef .tc main_arg6) := by
  unfold U1
  simp only [ops, List.take_succ_cons, List.take_zero, List.drop_succ_cons, List.drop_zero]
  after_results_simp <;> rfl

set_option maxRecDepth 8192 in
theorem U1_arg7 : U1 W (Proc.devRef .tc main_arg7) = W (Proc.devRef .tc main_arg7) := by
  unfold U1
  simp only [ops, List.take_succ_cons, List.take_zero, List.drop_succ_cons, List.drop_zero]
  after_results_simp <;> rfl

end Cert.ReferenceIdeal.RunH

end
-- ==== Proof.RefLayer1.lean ====
/-
  The reference's first layer (operations 43 to 65): from the contents the edge bookkeeping leaves, the layer's
  output buffer ends at its stage of the arguments; the edge arrays and the later layers' arguments are untouched.
-/
import proofs.«419310_j55920474193966_1_alg».proof.Proof.RefPieces
import proofs.«419310_j55920474193966_1_alg».proof.Proof.RefRun
import proofs.«419310_j55920474193966_1_alg».proof.Proof.RefRead
import proofs.«419310_j55920474193966_1_alg».proof.Proof.HostRead
import Idealize.ShloMosaic.Lib.StableHlo.Run
import Idealize.ShloMosaic.Lib.Pipeline.Frame

noncomputable section

namespace Cert.ReferenceIdeal.RunH

open Cert.ReferenceIdeal Cert.ReferenceIdeal.Gen Idealize.ShloMosaic Idealize.ShloMosaic.TcCoe Idealize.SL.Sem Idealize.ShloMosaic.StableHlo
open Cert.ReferenceIdeal.RunP (ops main_eq scopedRefs_eq scopedSems_eq ops_sub)
open Cert.ReferenceIdeal.ReadP (val_main_v3 val_main_v6 val_main_v30 val_main_v48 val_main_v66 val_main_v84)
open Cert.HostRead

variable {F : FTy → Type} [FloatOps F]

variable (W : Valuation τ sig (Elt F))

/-! ## After the first layer -/

set_option maxRecDepth 8192 in
set_option maxHeartbeats 4000000 in
theorem U2_v48 : U2 W (Proc.devRef .tc main_v48) = val_main_v48 (F := F) (W (Proc.devRef .tc main_arg0)) (W (Proc.devRef .tc main_arg1)) (W (Proc.devRef .tc main_arg2)) (W (Proc.devRef .tc main_arg3)) := by
  unfold U2
  simp only [ops, List.take_succ_cons, List.take_zero, List.drop_succ_cons, List.drop_zero]
  after_results_simp
  (try simp only [TRef.ofBuf, TRef.toBuf, cast_eq])
  rw [U1_v3, U1_v6, U1_v30, U1_arg0, U1_arg2, U1_arg3]
  rfl

set_option maxRecDepth 8192 in
theorem U2_v3 : U2 W (Proc.devRef .tc main_v3) = U1 W (Proc.devRef .tc main_v3) := by
  unfold U2
  simp only [ops, List.take_succ_cons, List.take_zero, List.drop_succ_cons, List.drop_zero]
  after_results_simp <;> rfl

set_option maxRecDepth 8192 in
theorem U2_v6 : U2 W (Proc.devRef .tc main_v6) = U1 W (Proc.devRef .tc main_v6) := by
  unfold U2
  simp only [ops, List.take_succ_cons, List.take_zero, List.drop_succ_cons, List.drop_zero]
  after_results_simp <;> rfl

set_option maxRecDepth 8192 in
theorem U2_v30 : U2 W (Proc.devRef .tc main_v30) = U1 W (Proc.devRef .tc main_v30) := by
  unfold U2
  simp only [ops, List.take_succ_cons, List.take_zero, List.drop_succ_cons, List.drop_zero]
  after_results_simp <;> rfl

set_option maxRecDepth 8192 in
theorem U2_arg4 : U2 W (Proc.devRef .tc main_arg4) = U1 W (Proc.devRef .tc main_arg4) := by
  unfold U2
  simp only [ops, List.take_succ_cons, List.take_zero, List.drop_succ_cons, List.drop_zero]
  after_results_simp <;> rfl

set_option maxRecDepth 8192 in
theorem U2_arg5 : U2 W (Proc.devRef .tc main_arg5) = U1 W (Proc.devRef .tc main_arg5) := by
  unfold U2
  simp only [ops, List.take_succ_cons, List.take_zero, List.drop_succ_cons, List.drop_zero]
  after_results_simp <;> rfl

set_option maxRecDepth 8192 in
theorem U2_arg6 : U2 W (Proc.devRef .tc main_arg6) = U1 W (Proc.devRef .tc main_arg6) := by
  unfold U2
  simp only [ops, List.take_succ_cons, List.take_zero, List.drop_succ_cons, List.drop_zero]
  after_results_simp <;> rfl

set_option maxRecDepth 8192 in
theorem U2_arg7 : U2 W (Proc.devRef .tc main_arg7) = U1 W (Proc.devRef .tc main_arg7) := by
  unfold U2
  simp only [ops, List.take_succ_cons, List.take_zero, List.drop_succ_cons, List.drop_zero]
  after_results_simp <;> rfl

end Cert.ReferenceIdeal.RunH

end
-- ==== Proof.RefLayer2.lean ====
/-
  The reference's second layer (operations 66 to 88): from the contents the first layer leaves, the layer's output
  buffer ends at its stage of the arguments; the edge arrays and the output layer's arguments are untouched.
-/
import proofs.«419310_j55920474193966_1_alg».proof.Proof.RefLayer1
import proofs.«419310_j55920474193966_1_alg».proof.Proof.RefRun
import proofs.«419310_j55920474193966_1_alg».proof.Proof.RefRead
import proofs.«419310_j55920474193966_1_alg».proof.Proof.HostRead
import Idealize.ShloMosaic.Lib.StableHlo.Run
import Idealize.ShloMosaic.Lib.Pipeline.Frame

noncomputable section

namespace Cert.ReferenceIdeal.RunH

open Cert.ReferenceIdeal Cert.ReferenceIdeal.Gen Idealize.ShloMosaic Idealize.ShloMosaic.TcCoe Idealize.SL.Sem Idealize.ShloMosaic.StableHlo
open Cert.ReferenceIdeal.RunP (ops main_eq scopedRefs_eq scopedSems_eq ops_sub)
open Cert.ReferenceIdeal.ReadP (val_main_v3 val_main_v6 val_main_v30 val_main_v48 val_main_v66 val_main_v84)
open Cert.HostRead

variable {F : FTy → Type} [FloatOps F]

variable (W : Valuation τ sig (Elt F))

/-! ## After the second layer -/

set_option maxRecDepth 8192 in
set_option maxHeartbeats 4000000 in
theorem U3_v66 : U3 W (Proc.devRef .tc main_v66) = val_main_v66 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) := by
  unfold U3
  simp only [ops, List.take_succ_cons, List.take_zero, List.drop_succ_cons, List.drop_zero]
  after_results_simp
  (try simp only [TRef.ofBuf, TRef.toBuf, cast_eq])
  rw [U2_v48, U2_v3, U2_v6, U2_v30, U2_arg4, U2_arg5, U1_v3, U1_v6, U1_v30, U1_arg4, U1_arg5]
  rfl

set_option maxRecDepth 8192 in
theorem U3_v3 : U3 W (Proc.devRef .tc main_v3) = U2 W (Proc.devRef .tc main_v3) := by
  unfold U3
  simp only [ops, List.take_succ_cons, List.take_zero, List.drop_succ_cons, List.drop_zero]
  after_results_simp <;> rfl

set_option maxRecDepth 8192 in
theorem U3_v6 : U3 W (Proc.devRef .tc main_v6) = U2 W (Proc.devRef .tc main_v6) := by
  unfold U3
  simp only [ops, List.take_succ_cons, List.take_zero, List.drop_succ_cons, List.drop_zero]
  after_results_simp <;> rfl

set_option maxRecDepth 8192 in
theorem U3_v30 : U3 W (Proc.devRef .tc main_v30) = U2 W (Proc.devRef .tc main_v30) := by
  unfold U3
  simp only [ops, List.take_succ_cons, List.take_zero, List.drop_succ_cons, List.drop_zero]
  after_results_simp <;> rfl

set_option maxRecDepth 8192 in
theorem U3_arg6 : U3 W (Proc.devRef .tc main_arg6) = U2 W (Proc.devRef .tc main_arg6) := by
  unfold U3
  simp only [ops, List.take_succ_cons, List.take_zero, List.drop_succ_cons, List.drop_zero]
  after_results_simp <;> rfl

set_option maxRecDepth 8192 in
theorem U3_arg7 : U3 W (Proc.devRef .tc main_arg7) = U2 W (Proc.devRef .tc main_arg7) := by
  unfold U3
  simp only [ops, List.take_succ_cons, List.take_zero, List.drop_succ_cons, List.drop_zero]
  after_results_simp <;> rfl

end Cert.ReferenceIdeal.RunH

end
-- ==== Proof.TypedRef.lean ====
/-
  A called function's values live in typed references: contents are carried to a reference's buffer and back along
  the equation between the buffer's type and the value's.  There and back is the identity.
-/
import Idealize.ShloMosaic.Lib.StableHlo.Run

namespace Cert.TypedRef

open Idealize.ShloMosaic Idealize.ShloMosaic.StableHlo

/-- Contents carried to a typed reference's buffer and read back are the contents. -/
theorem ofBuf_toBuf {sig : RefSig} {T : BufTy} {Val : EltTy → Type} (x : TRef sig T) (v : T.Contents Val) :
    x.ofBuf (x.toBuf v) = v := by
  obtain ⟨r, h, h1, h2⟩ := x
  subst h
  rfl

end Cert.TypedRef
-- ==== Proof.RefLayer3.lean ====
/-
  The reference's output layer (operations 89 to 123), in two pieces: the product, aggregation and bias leave the
  biased logits at their stage of the arguments; the 15 operations of the row-wise log-softmax then leave the result
  buffer at the last stage — the result of the whole line.
-/
import proofs.«419310_j55920474193966_1_alg».proof.Proof.RefLayer2
import proofs.«419310_j55920474193966_1_alg».proof.Proof.RefRun
import proofs.«419310_j55920474193966_1_alg».proof.Proof.RefRead
import proofs.«419310_j55920474193966_1_alg».proof.Proof.HostRead
import proofs.«419310_j55920474193966_1_alg».proof.Proof.TypedRef
import Idealize.ShloMosaic.Lib.StableHlo.Run
import Idealize.ShloMosaic.Lib.Pipeline.Frame

noncomputable section

namespace Cert.ReferenceIdeal.RunH

open Cert.ReferenceIdeal Cert.ReferenceIdeal.Gen Idealize.ShloMosaic Idealize.ShloMosaic.TcCoe Idealize.SL.Sem Idealize.ShloMosaic.StableHlo
open Cert.ReferenceIdeal.RunP (ops main_eq scopedRefs_eq scopedSems_eq ops_sub)
open Cert.ReferenceIdeal.ReadP (val_main_v3 val_main_v6 val_main_v30 val_main_v48 val_main_v66 val_main_v83 val_main_v84)
open Cert.HostRead

variable {F : FTy → Type} [FloatOps F]

variable (W : Valuation τ sig (Elt F))

/-! ## After the output layer's product, aggregation and bias: the biased logits -/

set_option maxRecDepth 8192 in
set_option maxHeartbeats 4000000 in
theorem U4_v83 : U4 W (Proc.devRef .tc main_v83) = val_main_v83 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  unfold U4
  simp only [ops, List.take_succ_cons, List.take_zero, List.drop_succ_cons, List.drop_zero]
  after_results_simp
  (try simp only [TRef.ofBuf, TRef.toBuf, cast_eq])
  rw [U3_v66, U3_v3, U3_v6, U3_v30, U3_arg6, U3_arg7, U2_v3, U2_v6, U2_v30, U2_arg6, U2_arg7, U1_v3, U1_v6, U1_v30, U1_arg6, U1_arg7]
  rfl

/-! ## After the log-softmax: the result -/

set_option maxRecDepth 8192 in
set_option maxHeartbeats 4000000 in
theorem U5_v84 : U5 W (Proc.devRef .tc main_v84) = val_main_v84 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  unfold U5
  simp only [ops, List.take_succ_cons, List.take_zero, List.drop_succ_cons, List.drop_zero]
  after_results_simp
  simp only [Cert.TypedRef.ofBuf_toBuf]
  rw [U4_v83]
  rfl

/-- The result buffer after the 123 operations holds the last stage of the arguments' launch contents. -/
theorem result_eq (m : (ℓ : Loc nD τ sig) → Buf (Elt F) ℓ) (c : Dev nD) :
    after (ops (F := F)) (launchContents m c) (Proc.devRef .tc main_v84)
      = val_main_v84 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [after_ops]
  exact U5_v84 (launchContents m c)

end Cert.ReferenceIdeal.RunH

end
-- ==== Proof.RefRunStages.lean ====
/-
  The reference's run, with its result stated as its last stage.

  Every weakly fair execution of the reference's straight line of 123 host operations terminates with each buffer at
  the fold of the operations' results over the launch contents.  Read at the result buffer that fold is the last
  stage `val_main_v84` of the eight arguments (the line read piece by piece); read at an argument buffer it is the
  launch contents, no operation writing an argument.
-/
import proofs.«419310_j55920474193966_1_alg».proof.Proof.RefLayer3
import proofs.«419310_j55920474193966_1_alg».proof.Proof.RefRun
import proofs.«419310_j55920474193966_1_alg».proof.Proof.RefRead
import proofs.«419310_j55920474193966_1_alg».proof.Proof.HostRead
import Idealize.ShloMosaic.Lib.StableHlo.Run
import Idealize.ShloMosaic.Lib.Pipeline.Frame

noncomputable section

namespace Cert.ReferenceIdeal.RunH

open Cert.ReferenceIdeal Cert.ReferenceIdeal.Gen Idealize.ShloMosaic Idealize.ShloMosaic.TcCoe Idealize.SL.Sem Idealize.ShloMosaic.StableHlo
open Cert.ReferenceIdeal.RunP (ops main_eq scopedRefs_eq scopedSems_eq ops_sub)
open Cert.ReferenceIdeal.ReadP (val_main_v3 val_main_v6 val_main_v30 val_main_v48 val_main_v66 val_main_v84)
open Cert.HostRead

variable {F : FTy → Type} [FloatOps F]

/-! ## The run -/

set_option maxRecDepth 8192 in
set_option maxHeartbeats 40000000 in
/-- On every device, from any memory with zero counters: every weakly fair execution of @main terminates with the
    result at the last stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v84) = val_main_v84 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v84).trans (result_eq m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl)⟩)
    (run_seq scopedRefs_eq scopedSems_eq defs main (fun _ => ops) main_eq (fun _ => ops_sub) m ρ)

end Cert.ReferenceIdeal.RunH

end
-- ==== Proof.Stages.lean ====
/-
  The layers of the graph network as whole-array functions, at any float instance.

  One layer is: a dense product `X · W` (rows of `X` against the columns of `W`), an aggregation over the
  edges (gather the source rows, scale each by the edge's norm, scatter-add into the destination rows: carried here
  as the program's own host operations and never opened), then the bias and either `max(·, 0)` or the row-wise
  log-softmax.  Both programs compute these three dense pieces; they differ only in where (a tiled kernel region
  against one host operation).  The functions below are the host spelling: each tiled region is shown equal to one
  of them, and the reference's stages are these functions by definition.
-/
import proofs.«419310_j55920474193966_1_alg».proof.Proof.Gen.ReferenceIdeal

noncomputable section

namespace Cert.Stages

open Idealize.ShloMosaic Cert.ReferenceIdeal Cert.ReferenceIdeal.Facts₀

variable {F : FTy → Type} [FloatOps F]

/-- `X · W` for a 128-column weight: entry (r, q) is the sum over k of X(r, k) · W(k, q). -/
def mm128 (X : FVec F S50000x128 .f32) (W : FVec F S128x128 .f32) : FVec F S50000x128 .f32 :=
  Host.dotGeneral dot_S50000x128_S128x128_S50000x128_1_0_0_1_n_n none X W

/-- `X · W` for the 40-column output weight. -/
def mm40 (X : FVec F S50000x128 .f32) (W : FVec F S128x40 .f32) : FVec F S50000x40 .f32 :=
  Host.dotGeneral dot_S50000x128_S128x40_S50000x40_1_0_0_1_n_n none X W

/-- The bias row added to every row, then `max(·, 0)`: entry (r, q) is max(Y(r, q) + B(0, q), 0). -/
def biasRelu (Y : FVec F S50000x128 .f32) (B : FVec F S1x128 .f32) : FVec F S50000x128 .f32 :=
  maximumf (addf Y (broadcastInDim S50000x128 ![0, 1] bcast_S1x128_S50000x128_0_1 B))
    (broadcastInDim S50000x128 ![] bcast_S_S50000x128 (constant S_ .f32 0x00000000#32))

/-- The biased logits `Y + B` (the bias row added to every row). -/
def biased40 (Y : FVec F S50000x40 .f32) (B : FVec F S1x40 .f32) : FVec F S50000x40 .f32 :=
  addf Y (broadcastInDim S50000x40 ![0, 1] bcast_S1x40_S50000x40_0_1 B)

/-- Row-wise log-softmax of the logits `Z`, in the shifted form: with m(r) the maximum of row r (taken from -∞, and
    once more against -∞), s = Z - m, the result is s(r, q) - log (0 + Σ_q' exp s(r, q')). -/
def logSoftmax40 (Z : FVec F S50000x40 .f32) : FVec F S50000x40 .f32 :=
  let mx : FVec F S50000 .f32 :=
    maximumf (broadcastInDim S50000 ![] bcast_S_S50000 (constant S_ .f32 0xFF800000#32))
      (Host.reduce FloatOps.maximumf Z (constant S_ .f32 0xFF800000#32) reducesTo_S50000x40_S50000_d1 h_S_)
  let s : FVec F S50000x40 .f32 :=
    subf Z (broadcastInDim S50000x40 ![0, 1] bcast_S50000x1_S50000x40_0_1 (broadcastInDim S50000x1 ![0] bcast_S50000_S50000x1_0 mx))
  let lse : FVec F S50000x1 .f32 :=
    Host.log (broadcastInDim S50000x1 ![0] bcast_S50000_S50000x1_0
      (Host.reduceAdd (Host.exp s) (constant S_ .f32 0x00000000#32) reducesTo_S50000x40_S50000_d1 h_S_))
  subf s (broadcastInDim S50000x40 ![0, 1] bcast_S50000x1_S50000x40_0_1 lse)

/-- The last layer's dense tail: bias, then row-wise log-softmax. -/
def biasLogSoftmax (Y : FVec F S50000x40 .f32) (B : FVec F S1x40 .f32) : FVec F S50000x40 .f32 :=
  logSoftmax40 (biased40 Y B)

end Cert.Stages

end
-- ==== Proof.Agg.lean ====
/-
  The aggregation over the edges as one function of the features and the three edge arrays.

  With `s3` the source node of each of the 850000 edges, `s6` its destination node and `s30` its norm
  (the product of the two end nodes' inverse square-root degrees), the aggregated features are: for each edge the
  source node's row of `H` (a negative index counted from the end), scaled by the edge's norm, scatter-added into
  the destination node's row of a zero array.  Both programs compute this by the same host operations; the gather and
  the scatter-add are never opened.
-/
import proofs.«419310_j55920474193966_1_alg».proof.Proof.Gen.ReferenceIdeal

noncomputable section

namespace Cert.Stages

open Idealize.ShloMosaic Cert.ReferenceIdeal Cert.ReferenceIdeal.Facts₀

variable {F : FTy → Type} [FloatOps F]

/-- The gather's index column: the source indices, a negative one moved up by the number of nodes. -/
def srcIdx (s3 : (⟨S850000, .i32⟩ : BufTy).Contents (Elt F)) : (⟨S850000x1, .i32⟩ : BufTy).Contents (Elt F) :=
  broadcastInDim S850000x1 ![0] bcast_S850000_S850000x1_0
    (select (cmpi .slt s3 (broadcastInDim S850000 ![] bcast_S_S850000 (constantI S_ 32 0#32)))
      (addi s3 (broadcastInDim S850000 ![] bcast_S_S850000 (constantI S_ 32 50000#32))) s3)

/-- The aggregation of 128-column features. -/
def agg128 (H : (⟨S50000x128, .f32⟩ : BufTy).Contents (Elt F)) (s3 s6 : (⟨S850000, .i32⟩ : BufTy).Contents (Elt F))
    (s30 : (⟨S850000, .f32⟩ : BufTy).Contents (Elt F)) : (⟨S50000x128, .f32⟩ : BufTy).Contents (Elt F) :=
  Host.scatterAdd scatter_S50000x128_S850000x1_S850000x128_1_0_0_1
    (broadcastInDim S50000x128 ![] bcast_S_S50000x128 (constant S_ .f32 0x00000000#32))
    (broadcastInDim S850000x1 ![0] bcast_S850000_S850000x1_0 s6)
    (mulf (Host.gather gather_S50000x128_S850000x1_S850000x128_1_0_n_n_0_1_1128 H (srcIdx s3))
      (broadcastInDim S850000x128 ![0, 1] bcast_S850000x1_S850000x128_0_1
        (broadcastInDim S850000x1 ![0] bcast_S850000_S850000x1_0 s30)))

/-- The aggregation of the 40-column logits. -/
def agg40 (H : (⟨S50000x40, .f32⟩ : BufTy).Contents (Elt F)) (s3 s6 : (⟨S850000, .i32⟩ : BufTy).Contents (Elt F))
    (s30 : (⟨S850000, .f32⟩ : BufTy).Contents (Elt F)) : (⟨S50000x40, .f32⟩ : BufTy).Contents (Elt F) :=
  Host.scatterAdd scatter_S50000x40_S850000x1_S850000x40_1_0_0_1
    (broadcastInDim S50000x40 ![] bcast_S_S50000x40 (constant S_ .f32 0x00000000#32))
    (broadcastInDim S850000x1 ![0] bcast_S850000_S850000x1_0 s6)
    (mulf (Host.gather gather_S50000x40_S850000x1_S850000x40_1_0_n_n_0_1_140 H (srcIdx s3))
      (broadcastInDim S850000x40 ![0, 1] bcast_S850000x1_S850000x40_0_1
        (broadcastInDim S850000x1 ![0] bcast_S850000_S850000x1_0 s30)))

end Cert.Stages

end
-- ==== Proof.RefStages.lean ====
/-
  The reference's stages, read as the layers' whole-array functions.

  Each stage of the reference is by definition its operation applied to the stages before it.  Grouped by layer: a
  product stage is the dense product of the previous layer's output; an aggregation stage is the edge aggregation of
  the product with the three edge arrays; a layer's last stage is the bias and relu (for the output layer the bias and
  row-wise log-softmax) of the aggregation.  All of these hold by unfolding the definitions.
-/
import proofs.«419310_j55920474193966_1_alg».proof.Proof.RefRead
import proofs.«419310_j55920474193966_1_alg».proof.Proof.Stages
import proofs.«419310_j55920474193966_1_alg».proof.Proof.Agg

noncomputable section

namespace Cert.ReferenceIdeal.RefStages

open Idealize.ShloMosaic Cert.ReferenceIdeal Cert.ReferenceIdeal.ReadP Cert.Stages

variable {F : FTy → Type} [FloatOps F]

/-! ## First layer -/

theorem ref_v31 (x0 : (⟨S50000x128, .f32⟩ : BufTy).Contents (Elt F)) (x2 : (⟨S128x128, .f32⟩ : BufTy).Contents (Elt F)) :
    val_main_v31 (F := F) x0 x2 = mm128 x0 x2 := rfl

theorem ref_v44 (x0 : (⟨S50000x128, .f32⟩ : BufTy).Contents (Elt F)) (x1 : (⟨S2x800000, .i32⟩ : BufTy).Contents (Elt F)) (x2 : (⟨S128x128, .f32⟩ : BufTy).Contents (Elt F)) :
    val_main_v44 (F := F) x0 x1 x2 = agg128 (val_main_v31 (F := F) x0 x2) (val_main_v3 (F := F) x1) (val_main_v6 (F := F) x1) (val_main_v30 (F := F) x1) := rfl

theorem ref_v48 (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) :
    val_main_v48 (F := F) x0 x1 x2 x3 = biasRelu (val_main_v44 (F := F) x0 x1 x2) (val_main_v45 (F := F) x3) := rfl

/-! ## Second layer -/

theorem ref_v49 (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) :
    val_main_v49 (F := F) x0 x1 x2 x3 x4 = mm128 (val_main_v48 (F := F) x0 x1 x2 x3) x4 := rfl

theorem ref_v62 (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) :
    val_main_v62 (F := F) x0 x1 x2 x3 x4 = agg128 (val_main_v49 (F := F) x0 x1 x2 x3 x4) (val_main_v3 (F := F) x1) (val_main_v6 (F := F) x1) (val_main_v30 (F := F) x1) := rfl

theorem ref_v66 (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F)) :
    val_main_v66 (F := F) x0 x1 x2 x3 x4 x5 = biasRelu (val_main_v62 (F := F) x0 x1 x2 x3 x4) (val_main_v63 (F := F) x5) := rfl

/-! ## Output layer -/

theorem ref_v67 (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F)) (x6 : (⟨S128x40, .f32⟩ : BufTy).Contents (Elt F)) :
    val_main_v67 (F := F) x0 x1 x2 x3 x4 x5 x6 = mm40 (val_main_v66 (F := F) x0 x1 x2 x3 x4 x5) x6 := rfl

theorem ref_v80 (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F)) (x6 : (⟨S128x40, .f32⟩ : BufTy).Contents (Elt F)) :
    val_main_v80 (F := F) x0 x1 x2 x3 x4 x5 x6 = agg40 (val_main_v67 (F := F) x0 x1 x2 x3 x4 x5 x6) (val_main_v3 (F := F) x1) (val_main_v6 (F := F) x1) (val_main_v30 (F := F) x1) := rfl

theorem ref_v84 (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F)) (x6 : (⟨S128x40, .f32⟩ : BufTy).Contents (Elt F)) (x7 : (⟨S40, .f32⟩ : BufTy).Contents (Elt F)) :
    val_main_v84 (F := F) x0 x1 x2 x3 x4 x5 x6 x7 = biasLogSoftmax (val_main_v80 (F := F) x0 x1 x2 x3 x4 x5 x6) (val_main_v81 (F := F) x7) := rfl

end Cert.ReferenceIdeal.RefStages

end
-- ==== Proof.HostK.lean ====
/-
  The kernel program's host stretches, read at the buffers the regions and the later stretches take.

  From any contents `W` of the buffers (any float instance): the first three stretches compute the three edge arrays
  from the edge list exactly as the reference's first operations do; each aggregation stretch leaves the edge
  aggregation of the product it finds, with the edge arrays it finds, and the layer's bias vector reshaped to one row.
-/
import proofs.«419310_j55920474193966_1_alg».proof.Proof.Gen.KernelIdeal.Launch
import proofs.«419310_j55920474193966_1_alg».proof.Proof.RefRead
import proofs.«419310_j55920474193966_1_alg».proof.Proof.Agg
import proofs.«419310_j55920474193966_1_alg».proof.Proof.HostRead
import Idealize.ShloMosaic.Lib.StableHlo.Run

set_option maxRecDepth 16384

noncomputable section

namespace Cert.KernelIdeal.HostK

open Idealize.ShloMosaic Idealize.ShloMosaic.TcCoe Idealize.SL.Sem Idealize.ShloMosaic.StableHlo
open Cert.KernelIdeal Cert.KernelIdeal.Gen Cert.HostRead
open Cert.ReferenceIdeal.ReadP (val_main_v3 val_main_v6 val_main_v30)
open Cert.Stages (agg128 agg40)

variable {F : FTy → Type} [FloatOps F] (W : Valuation τ sig (Elt F))

/-! ## Before the first region: the edge arrays -/

theorem edges_v3 : after hostOps0_2 (after hostOps0_1 (after hostOps0 W)) (Proc.devRef .tc main_v3)
    = val_main_v3 (F := F) (W (Proc.devRef .tc main_arg1)) := by
  after_results_simp
  results_inside
  rfl

theorem edges_v6 : after hostOps0_2 (after hostOps0_1 (after hostOps0 W)) (Proc.devRef .tc main_v6)
    = val_main_v6 (F := F) (W (Proc.devRef .tc main_arg1)) := by
  after_results_simp
  results_inside
  rfl

theorem edges_v30 : after hostOps0_2 (after hostOps0_1 (after hostOps0 W)) (Proc.devRef .tc main_v30)
    = val_main_v30 (F := F) (W (Proc.devRef .tc main_arg1)) := by
  after_results_simp
  results_inside
  (try simp only [TRef.ofBuf, TRef.toBuf, cast_eq])
  rfl

/-! ## The three aggregation stretches -/

theorem agg1_v44 : after hostOps1 W (Proc.devRef .tc main_v44)
    = agg128 (F := F) (W (Proc.devRef .tc main_v31)) (W (Proc.devRef .tc main_v3)) (W (Proc.devRef .tc main_v6)) (W (Proc.devRef .tc main_v30)) := by
  after_results_simp
  rfl

theorem agg1_v45 : after hostOps1 W (Proc.devRef .tc main_v45)
    = shapeCast S1x128 (W (Proc.devRef .tc main_arg3)) shapeCasts_S128_S1x128 := by
  after_results_simp
  rfl

theorem agg2_v60 : after hostOps3 W (Proc.devRef .tc main_v60)
    = agg128 (F := F) (W (Proc.devRef .tc main_v47)) (W (Proc.devRef .tc main_v3)) (W (Proc.devRef .tc main_v6)) (W (Proc.devRef .tc main_v30)) := by
  after_results_simp
  rfl

theorem agg2_v61 : after hostOps3 W (Proc.devRef .tc main_v61)
    = shapeCast S1x128 (W (Proc.devRef .tc main_arg5)) shapeCasts_S128_S1x128 := by
  after_results_simp
  rfl

theorem agg3_v76 : after hostOps5 W (Proc.devRef .tc main_v76)
    = agg40 (F := F) (W (Proc.devRef .tc main_v63)) (W (Proc.devRef .tc main_v3)) (W (Proc.devRef .tc main_v6)) (W (Proc.devRef .tc main_v30)) := by
  after_results_simp
  rfl

theorem agg3_v77 : after hostOps5 W (Proc.devRef .tc main_v77)
    = shapeCast S1x40 (W (Proc.devRef .tc main_arg7)) shapeCasts_S40_S1x40 := by
  after_results_simp
  rfl

end Cert.KernelIdeal.HostK

end
-- ==== Proof.Keeps.lean ====
/-
  Buffers that nothing writes between two boundaries of @main hold at the later boundary what they held at the
  earlier one.  The argument arrays are written by no host operation and are no region's output, so at every
  boundary they hold their launch contents; the three edge arrays computed before the first region (the source
  indices, the destination indices, the per-edge norm) are read again by each later aggregation and are written by
  nothing after the first region's entry.
-/
import proofs.«419310_j55920474193966_1_alg».proof.Proof.Gen.KernelIdeal.Frame

set_option maxRecDepth 16384

noncomputable section

namespace Cert.KernelIdeal.Keeps

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg) (c : Dev nD)

/-- Crossing a host stretch at a buffer that is the result of none of its operations: the buffer is as before. -/
local macro "host_keep% " ops:ident b:ident : term =>
  `(StableHlo.after_of_forall_not_mem (b := Proc.devRef .tc $b) _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-- The arguments first read after the first region, at the first region's entry: three host stretches back to the launch. -/
theorem W3_main_arg3 : W3 m ρ c (Proc.devRef .tc main_arg3) = m ((c : Thread nD τ).loc main_arg3) := by
  calc W3 m ρ c (Proc.devRef .tc main_arg3)
    _ = W2 m ρ c (Proc.devRef .tc main_arg3) := host_keep% hostOps0_2 main_arg3
    _ = W1 m ρ c (Proc.devRef .tc main_arg3) := host_keep% hostOps0_1 main_arg3
    _ = W0 m ρ c (Proc.devRef .tc main_arg3) := host_keep% hostOps0 main_arg3
    _ = m ((c : Thread nD τ).loc main_arg3) := rfl

theorem W3_main_arg4 : W3 m ρ c (Proc.devRef .tc main_arg4) = m ((c : Thread nD τ).loc main_arg4) := by
  calc W3 m ρ c (Proc.devRef .tc main_arg4)
    _ = W2 m ρ c (Proc.devRef .tc main_arg4) := host_keep% hostOps0_2 main_arg4
    _ = W1 m ρ c (Proc.devRef .tc main_arg4) := host_keep% hostOps0_1 main_arg4
    _ = W0 m ρ c (Proc.devRef .tc main_arg4) := host_keep% hostOps0 main_arg4
    _ = m ((c : Thread nD τ).loc main_arg4) := rfl

/-! ## The argument arrays, each at the boundary where it is read -/

theorem W3_arg0 : W3 m ρ c (Proc.devRef .tc main_arg0) = m ((c : Thread nD τ).loc main_arg0) := by
  calc W3 m ρ c (Proc.devRef .tc main_arg0)
    _ = W2 m ρ c (Proc.devRef .tc main_arg0) := host_keep% hostOps0_2 main_arg0
    _ = W1 m ρ c (Proc.devRef .tc main_arg0) := host_keep% hostOps0_1 main_arg0
    _ = W0 m ρ c (Proc.devRef .tc main_arg0) := host_keep% hostOps0 main_arg0
    _ = m ((c : Thread nD τ).loc main_arg0) := rfl

theorem W3_arg2 : W3 m ρ c (Proc.devRef .tc main_arg2) = m ((c : Thread nD τ).loc main_arg2) := by
  calc W3 m ρ c (Proc.devRef .tc main_arg2)
    _ = W2 m ρ c (Proc.devRef .tc main_arg2) := host_keep% hostOps0_2 main_arg2
    _ = W1 m ρ c (Proc.devRef .tc main_arg2) := host_keep% hostOps0_1 main_arg2
    _ = W0 m ρ c (Proc.devRef .tc main_arg2) := host_keep% hostOps0 main_arg2
    _ = m ((c : Thread nD τ).loc main_arg2) := rfl

theorem W4_arg3 : W4 m ρ c (Proc.devRef .tc main_arg3) = m ((c : Thread nD τ).loc main_arg3) := by
  calc W4 m ρ c (Proc.devRef .tc main_arg3)
    _ = W3 m ρ c (Proc.devRef .tc main_arg3) := W4_of_ne m ρ c main_arg3 (by decide)
    _ = m ((c : Thread nD τ).loc main_arg3) := W3_main_arg3 m ρ c

theorem W6_arg4 : W6 m ρ c (Proc.devRef .tc main_arg4) = m ((c : Thread nD τ).loc main_arg4) := by
  calc W6 m ρ c (Proc.devRef .tc main_arg4)
    _ = W5 m ρ c (Proc.devRef .tc main_arg4) := W6_of_ne m ρ c main_arg4 (by decide)
    _ = W4 m ρ c (Proc.devRef .tc main_arg4) := host_keep% hostOps1 main_arg4
    _ = W3 m ρ c (Proc.devRef .tc main_arg4) := W4_of_ne m ρ c main_arg4 (by decide)
    _ = m ((c : Thread nD τ).loc main_arg4) := W3_main_arg4 m ρ c

theorem W7_arg5 : W7 m ρ c (Proc.devRef .tc main_arg5) = m ((c : Thread nD τ).loc main_arg5) := by
  calc W7 m ρ c (Proc.devRef .tc main_arg5)
    _ = W8 m ρ c (Proc.devRef .tc main_arg5) := (host_keep% hostOps3 main_arg5).symm
    _ = W9 m ρ c (Proc.devRef .tc main_arg5) := (W9_of_ne m ρ c main_arg5 (by decide)).symm
    _ = W10 m ρ c (Proc.devRef .tc main_arg5) := (W10_of_ne m ρ c main_arg5 (by decide)).symm
    _ = W11 m ρ c (Proc.devRef .tc main_arg5) := (host_keep% hostOps5 main_arg5).symm
    _ = W12 m ρ c (Proc.devRef .tc main_arg5) := (W12_of_ne m ρ c main_arg5 (by decide)).symm
    _ = m ((c : Thread nD τ).loc main_arg5) := W12_main_arg5 m ρ c

theorem W9_arg6 : W9 m ρ c (Proc.devRef .tc main_arg6) = m ((c : Thread nD τ).loc main_arg6) := by
  calc W9 m ρ c (Proc.devRef .tc main_arg6)
    _ = W10 m ρ c (Proc.devRef .tc main_arg6) := ((W10_arr m ρ c 1).trans (((dat4 (V9 m ρ) c).arrAt_in 1 rfl _).trans (A_eq4 (V9 m ρ) c 1))).symm
    _ = W11 m ρ c (Proc.devRef .tc main_arg6) := (host_keep% hostOps5 main_arg6).symm
    _ = W12 m ρ c (Proc.devRef .tc main_arg6) := (W12_of_ne m ρ c main_arg6 (by decide)).symm
    _ = m ((c : Thread nD τ).loc main_arg6) := W12_main_arg6 m ρ c

theorem W10_arg7 : W10 m ρ c (Proc.devRef .tc main_arg7) = m ((c : Thread nD τ).loc main_arg7) := by
  calc W10 m ρ c (Proc.devRef .tc main_arg7)
    _ = W11 m ρ c (Proc.devRef .tc main_arg7) := (host_keep% hostOps5 main_arg7).symm
    _ = W12 m ρ c (Proc.devRef .tc main_arg7) := (W12_of_ne m ρ c main_arg7 (by decide)).symm
    _ = m ((c : Thread nD τ).loc main_arg7) := W12_main_arg7 m ρ c

/-! ## The edge arrays, from the first region's entry (boundary 3) to each later aggregation's boundary -/

theorem W4_v3 : W4 m ρ c (Proc.devRef .tc main_v3) = W3 m ρ c (Proc.devRef .tc main_v3) := by
  exact W4_of_ne m ρ c main_v3 (by decide)

theorem W7_v3 : W7 m ρ c (Proc.devRef .tc main_v3) = W3 m ρ c (Proc.devRef .tc main_v3) := by
  calc W7 m ρ c (Proc.devRef .tc main_v3)
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := host_keep% hostOps1 main_v3
    _ = W3 m ρ c (Proc.devRef .tc main_v3) := W4_v3 m ρ c

theorem W10_v3 : W10 m ρ c (Proc.devRef .tc main_v3) = W3 m ρ c (Proc.devRef .tc main_v3) := by
  calc W10 m ρ c (Proc.devRef .tc main_v3)
    _ = W9 m ρ c (Proc.devRef .tc main_v3) := W10_of_ne m ρ c main_v3 (by decide)
    _ = W8 m ρ c (Proc.devRef .tc main_v3) := W9_of_ne m ρ c main_v3 (by decide)
    _ = W7 m ρ c (Proc.devRef .tc main_v3) := host_keep% hostOps3 main_v3
    _ = W3 m ρ c (Proc.devRef .tc main_v3) := W7_v3 m ρ c

theorem W4_v6 : W4 m ρ c (Proc.devRef .tc main_v6) = W3 m ρ c (Proc.devRef .tc main_v6) := by
  exact W4_of_ne m ρ c main_v6 (by decide)

theorem W7_v6 : W7 m ρ c (Proc.devRef .tc main_v6) = W3 m ρ c (Proc.devRef .tc main_v6) := by
  calc W7 m ρ c (Proc.devRef .tc main_v6)
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := host_keep% hostOps1 main_v6
    _ = W3 m ρ c (Proc.devRef .tc main_v6) := W4_v6 m ρ c

theorem W10_v6 : W10 m ρ c (Proc.devRef .tc main_v6) = W3 m ρ c (Proc.devRef .tc main_v6) := by
  calc W10 m ρ c (Proc.devRef .tc main_v6)
    _ = W9 m ρ c (Proc.devRef .tc main_v6) := W10_of_ne m ρ c main_v6 (by decide)
    _ = W8 m ρ c (Proc.devRef .tc main_v6) := W9_of_ne m ρ c main_v6 (by decide)
    _ = W7 m ρ c (Proc.devRef .tc main_v6) := host_keep% hostOps3 main_v6
    _ = W3 m ρ c (Proc.devRef .tc main_v6) := W7_v6 m ρ c

theorem W4_v30 : W4 m ρ c (Proc.devRef .tc main_v30) = W3 m ρ c (Proc.devRef .tc main_v30) := by
  exact W4_of_ne m ρ c main_v30 (by decide)

theorem W7_v30 : W7 m ρ c (Proc.devRef .tc main_v30) = W3 m ρ c (Proc.devRef .tc main_v30) := by
  calc W7 m ρ c (Proc.devRef .tc main_v30)
    _ = W6 m ρ c (Proc.devRef .tc main_v30) := W7_of_ne m ρ c main_v30 (by decide)
    _ = W5 m ρ c (Proc.devRef .tc main_v30) := W6_of_ne m ρ c main_v30 (by decide)
    _ = W4 m ρ c (Proc.devRef .tc main_v30) := host_keep% hostOps1 main_v30
    _ = W3 m ρ c (Proc.devRef .tc main_v30) := W4_v30 m ρ c

theorem W10_v30 : W10 m ρ c (Proc.devRef .tc main_v30) = W3 m ρ c (Proc.devRef .tc main_v30) := by
  calc W10 m ρ c (Proc.devRef .tc main_v30)
    _ = W9 m ρ c (Proc.devRef .tc main_v30) := W10_of_ne m ρ c main_v30 (by decide)
    _ = W8 m ρ c (Proc.devRef .tc main_v30) := W9_of_ne m ρ c main_v30 (by decide)
    _ = W7 m ρ c (Proc.devRef .tc main_v30) := host_keep% hostOps3 main_v30
    _ = W3 m ρ c (Proc.devRef .tc main_v30) := W7_v30 m ρ c

end Cert.KernelIdeal.Keeps

end
-- ==== Proof.PayMM.lean ====
/-
  The matmul regions' body at one entry.  A block of 5000 rows of `X` times the whole weight `W`, the operands
  narrowed to bf16 first (the identity on extended reals) and accumulated into zero, is at entry (p, q) the sum over k
  of X(T·5000 + p, k) · W(k, q): the entry (T·5000 + p, q) of the whole product `X · W`.
-/
import proofs.«419310_j55920474193966_1_alg».proof.Proof.Gen.KernelIdeal.Skeleton
import proofs.«419310_j55920474193966_1_alg».proof.Proof.Stages
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayMM

open Idealize.ShloMosaic Idealize.ShloMosaic.ValueIdx Cert.KernelIdeal Cert.KernelIdeal.Gen

/-- A plain rows × 128 by 128 × columns contraction, read at entry (r, q), sums over the 128 inner positions:
    the left operand is read at (r, k), the right one at (k, q). -/
theorem dot_sum {m n : Nat} (d : DotDims ⟨2, ![m, 128]⟩ ⟨2, ![128, n]⟩ ⟨2, ![m, n]⟩)
    (hlc : d.lhsContracting = [1]) (hrc : d.rhsContracting = [0])
    (hln : d.lhsNonContracting = [0]) (hrn : d.rhsNonContracting = [1])
    (hlb : d.lhsBatch = []) (hrb : d.rhsBatch = [])
    (A : (⟨2, ![m, 128]⟩ : Shape).Idx → EReal) (B : (⟨2, ![128, n]⟩ : Shape).Idx → EReal) (r : Fin m) (q : Fin n) :
    ∑ k : d.contr.Idx, A (d.lhsIdx (ix2 r q) k) * B (d.rhsIdx (ix2 r q) k) = ∑ k : Fin 128, A (ix2 r k) * B (ix2 k q) := by
  obtain ⟨lc, rc, ln, rn, lb, rb, wf⟩ := d
  simp only at hlc hrc hln hrn hlb hrb
  subst hlc hrc hln hrn hlb hrb
  set d : DotDims ⟨2, ![m, 128]⟩ ⟨2, ![128, n]⟩ ⟨2, ![m, n]⟩ := ⟨[1], [0], [0], [1], [], [], wf⟩ with hd
  rw [← Equiv.sum_comp (contrEquiv1 d 128 rfl rfl).symm]
  refine Finset.sum_congr rfl fun k _ => ?_
  have hk := contrEquiv1_symm_val d 128 rfl rfl k
  have l0 : ∀ (c : d.contr.Idx), (d.lhsIdx (ix2 r q) c 0).val = r.val := fun c => by
    unfold DotDims.lhsIdx
    rw [dif_neg (show ¬(0 : Fin 2) ∈ d.lhsBatch from List.not_mem_nil), dif_pos (show (0 : Fin 2) ∈ d.lhsNonContracting from List.mem_singleton.mpr rfl)]
    rfl
  have r1 : ∀ (c : d.contr.Idx), (d.rhsIdx (ix2 r q) c 1).val = q.val := fun c => by
    unfold DotDims.rhsIdx
    rw [dif_neg (show ¬(1 : Fin 2) ∈ d.rhsBatch from List.not_mem_nil), dif_pos (show (1 : Fin 2) ∈ d.rhsNonContracting from List.mem_singleton.mpr rfl)]
    rfl
  have el : d.lhsIdx (ix2 r q) ((contrEquiv1 d 128 rfl rfl).symm k) = ix2 r k := funext fun a => Fin.ext (by
    match a with
    | ⟨0, _⟩ => exact l0 _
    | ⟨1, _⟩ => exact (d.lhsIdx_val_of_single rfl _ _).trans hk)
  have er : d.rhsIdx (ix2 r q) ((contrEquiv1 d 128 rfl rfl).symm k) = ix2 k q := funext fun a => Fin.ext (by
    match a with
    | ⟨0, _⟩ => exact (d.rhsIdx_val_of_single rfl _ _).trans hk
    | ⟨1, _⟩ => exact r1 _)
  rw [el, er]

/-- The reference's 128-column product at entry (r, q). -/
theorem mm128_apply (X : FVec Ideal S50000x128 .f32) (W : FVec Ideal S128x128 .f32) (r : Fin 50000) (q : Fin 128) :
    Cert.Stages.mm128 X W (ix2 r q) = ∑ k : Fin 128, X (ix2 r k) * W (ix2 k q) := by
  unfold Cert.Stages.mm128
  simp only [Host.dotGeneral]
  exact (Ideal.dotGeneral_apply _ none _ X W (ix2 r q)).trans
    (dot_sum Cert.ReferenceIdeal.dot_S50000x128_S128x128_S50000x128_1_0_0_1_n_n rfl rfl rfl rfl rfl rfl X W r q)

/-- The reference's 40-column product at entry (r, q). -/
theorem mm40_apply (X : FVec Ideal S50000x128 .f32) (W : FVec Ideal S128x40 .f32) (r : Fin 50000) (q : Fin 40) :
    Cert.Stages.mm40 X W (ix2 r q) = ∑ k : Fin 128, X (ix2 r k) * W (ix2 k q) := by
  unfold Cert.Stages.mm40
  simp only [Host.dotGeneral]
  exact (Ideal.dotGeneral_apply _ none _ X W (ix2 r q)).trans
    (dot_sum Cert.ReferenceIdeal.dot_S50000x128_S128x40_S50000x40_1_0_0_1_n_n rfl rfl rfl rfl rfl rfl X W r q)

/-- The block's 128-column product into zero at entry (p, q); narrowing the operands is the identity. -/
theorem kmm128_apply (x0 : FVec Ideal S5000x128 .f32) (x1 : FVec Ideal S128x128 .f32) (p : Fin 5000) (q : Fin 128) :
    matmul (F := Ideal) dot_S5000x128_S128x128_S5000x128_1_0_0_1_n_n none (truncf .bf16 x0 bitsLt_bf16_f32)
      (truncf .bf16 x1 bitsLt_bf16_f32) (constant S5000x128 .f32 0x00000000#32) (ix2 p q)
      = ∑ k : Fin 128, x0 (ix2 p k) * x1 (ix2 k q) :=
  (Ideal.matmul_constant_zero_apply _ none _ _ (ix2 p q)).trans
    (dot_sum dot_S5000x128_S128x128_S5000x128_1_0_0_1_n_n rfl rfl rfl rfl rfl rfl x0 x1 p q)

/-- The block's 40-column product into zero at entry (p, q). -/
theorem kmm40_apply (x0 : FVec Ideal S5000x128 .f32) (x1 : FVec Ideal S128x40 .f32) (p : Fin 5000) (q : Fin 40) :
    matmul (F := Ideal) dot_S5000x128_S128x40_S5000x40_1_0_0_1_n_n none (truncf .bf16 x0 bitsLt_bf16_f32)
      (truncf .bf16 x1 bitsLt_bf16_f32) (constant S5000x40 .f32 0x00000000#32) (ix2 p q)
      = ∑ k : Fin 128, x0 (ix2 p k) * x1 (ix2 k q) :=
  (Ideal.matmul_constant_zero_apply _ none _ _ (ix2 p q)).trans
    (dot_sum dot_S5000x128_S128x40_S5000x40_1_0_0_1_n_n rfl rfl rfl rfl rfl rfl x0 x1 p q)

/-- Region 0 (first layer): the block's product is the whole product's rows T·5000 … T·5000 + 4999. -/
theorem pay0_row (X : FVec Ideal S50000x128 .f32) (W : FVec Ideal S128x128 .f32)
    (x0 : Vec Ideal S5000x128 .f32) (x1 : Vec Ideal S128x128 .f32) (T : Nat) (hT : T < 10)
    (hx0 : ∀ (p : Fin 5000) (k : Fin 128), x0 (ix2 p k) = X (ix2 ⟨T * 5000 + p.val, by omega⟩ k))
    (hx1 : x1 = W) (p : Fin 5000) (q : Fin 128) :
    k0_pay1 (F := Ideal) x0 x1 (ix2 p q) = Cert.Stages.mm128 X W (ix2 ⟨T * 5000 + p.val, by omega⟩ q) := by
  unfold k0_pay1
  refine (kmm128_apply x0 x1 p q).trans ?_
  rw [mm128_apply, hx1]
  exact Finset.sum_congr rfl fun k _ => by rw [hx0 p k]

/-- Region 2 (second layer): the same body after an identity shape cast of the block. -/
theorem pay2_row (X : FVec Ideal S50000x128 .f32) (W : FVec Ideal S128x128 .f32)
    (x0 : Vec Ideal S5000x128 .f32) (x1 : Vec Ideal S128x128 .f32) (T : Nat) (hT : T < 10)
    (hx0 : ∀ (p : Fin 5000) (k : Fin 128), x0 (ix2 p k) = X (ix2 ⟨T * 5000 + p.val, by omega⟩ k))
    (hx1 : x1 = W) (p : Fin 5000) (q : Fin 128) :
    k2_pay1 (F := Ideal) x0 x1 (ix2 p q) = Cert.Stages.mm128 X W (ix2 ⟨T * 5000 + p.val, by omega⟩ q) := by
  unfold k2_pay1
  rw [shapeCast_self]
  refine (kmm128_apply x0 x1 p q).trans ?_
  rw [mm128_apply, hx1]
  exact Finset.sum_congr rfl fun k _ => by rw [hx0 p k]

/-- Region 4 (output layer): 128 → 40 columns. -/
theorem pay4_row (X : FVec Ideal S50000x128 .f32) (W : FVec Ideal S128x40 .f32)
    (x0 : Vec Ideal S5000x128 .f32) (x1 : Vec Ideal S128x40 .f32) (T : Nat) (hT : T < 10)
    (hx0 : ∀ (p : Fin 5000) (k : Fin 128), x0 (ix2 p k) = X (ix2 ⟨T * 5000 + p.val, by omega⟩ k))
    (hx1 : x1 = W) (p : Fin 5000) (q : Fin 40) :
    k4_pay1 (F := Ideal) x0 x1 (ix2 p q) = Cert.Stages.mm40 X W (ix2 ⟨T * 5000 + p.val, by omega⟩ q) := by
  unfold k4_pay1
  rw [shapeCast_self]
  refine (kmm40_apply x0 x1 p q).trans ?_
  rw [mm40_apply, hx1]
  exact Finset.sum_congr rfl fun k _ => by rw [hx0 p k]

end Cert.KernelIdeal.PayMM

end
-- ==== Proof.Region0.lean ====
/-
  Region 0 (the first layer's dense product), lifted from blocks to the whole array.

  The grid has ten points; point t stages rows t·5000 … t·5000 + 4999 of the left operand, the whole weight, and
  writes back rows t·5000 … of the result.  The body's value at (p, q) of the block is the entry (t·5000 + p, q) of
  the whole product (the body lemma), every row of the result lies in exactly the block of point r / 5000, and so
  after the ten write-backs the result array IS the whole product of the arrays as the region found them.
-/
import proofs.«419310_j55920474193966_1_alg».proof.Proof.Gen.KernelIdeal.Frame
import proofs.«419310_j55920474193966_1_alg».proof.Proof.PayMM
import Idealize.ShloMosaic.Lib.Pipeline.Value
import Idealize.ShloMosaic.Lib.ValueIdx

set_option maxRecDepth 16384

noncomputable section

namespace Cert.KernelIdeal.Region0

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block indices over the grid: the row operand and the result move with the point, the second operand stays. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The arrays as the region finds them, at their literal types. -/
abbrev lhs (c : Dev nD) : FVec Ideal S50000x128 .f32 := V c main_arg0
abbrev rhs (c : Dev nD) : FVec Ideal S128x128 .f32 := V c main_arg2

/-- The whole array the region leaves. -/
abbrev G (c : Dev nD) : FVec Ideal S50000x128 .f32 := Cert.Stages.mm128 (lhs V c) (rhs V c)

/-- Point t's block of the row operand is rows t·5000 … of it. -/
theorem blk0_row (c : Dev nD) (t : Fin cfg0.N) (ht : t.val < 10) (p : Fin 5000) (k : Fin 128) :
    iblk0 V c 0 t (ix2 p k) = lhs V c (ix2 ⟨t.val * 5000 + p.val, by omega⟩ k) := by
  show V c main_arg0 (((cfg0.win 0).blk t).view.emb (ix2 p k)) = V c main_arg0 _
  refine congrArg (V c main_arg0) ?_
  obtain ⟨e0, e1, -⟩ := idx_facts t
  funext a; apply Fin.ext
  match a with
  | ⟨0, _⟩ => show win0_0.index t (0 : Fin 2) * 5000 + 1 * p.val = t.val * 5000 + p.val; rw [e0]; omega
  | ⟨1, _⟩ => show win0_0.index t (1 : Fin 2) * 128 + 1 * k.val = k.val; rw [e1]; omega

/-- Every point's block of the second operand is the whole of it. -/
theorem blk1_whole (c : Dev nD) (t : Fin cfg0.N) : iblk0 V c 1 t = rhs V c := by
  funext j
  show V c main_arg2 (((cfg0.win 1).blk t).view.emb j) = V c main_arg2 j
  refine congrArg (V c main_arg2) ?_
  obtain ⟨-, -, e2, e3, -⟩ := idx_facts t
  funext a; apply Fin.ext
  match a with
  | ⟨0, _⟩ => show win0_1.index t (0 : Fin 2) * 128 + 1 * (j 0).val = (j 0).val; rw [e2]; omega
  | ⟨1, _⟩ => show win0_1.index t (1 : Fin 2) * 128 + 1 * (j 1).val = (j 1).val; rw [e3]; omega

/-- What point t writes back is block t of the whole product. -/
theorem flushed_eq (c : Dev nD) (t : Fin cfg0.N) :
    (dat0 V c).flushed 2 t = ((cfg0.win 2).blk t).view.read (Elt Ideal) (G V c) := by
  have ht : t.val < 10 := t.isLt
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  funext j
  obtain ⟨p, q, rfl⟩ : ∃ (p : Fin 5000) (q : Fin 128), j = ix2 p q := ⟨j 0, j 1, eq_ix2 j⟩
  show k0_pay1 (iblk0 V c 0 t) (iblk0 V c 1 t) (ix2 p q) = G V c (((cfg0.win 2).blk t).view.emb (ix2 p q))
  have hemb : ((cfg0.win 2).blk t).view.emb (ix2 p q) = ix2 ⟨t.val * 5000 + p.val, by omega⟩ q := by
    obtain ⟨-, -, -, -, e4, e5⟩ := idx_facts t
    funext a; apply Fin.ext
    match a with
    | ⟨0, _⟩ => show win0_2.index t (0 : Fin 2) * 5000 + 1 * p.val = t.val * 5000 + p.val; rw [e4]; omega
    | ⟨1, _⟩ => show win0_2.index t (1 : Fin 2) * 128 + 1 * q.val = q.val; rw [e5]; omega
  rw [hemb]
  exact Cert.KernelIdeal.PayMM.pay0_row (lhs V c) (rhs V c) (iblk0 V c 0 t) (iblk0 V c 1 t) t.val ht
    (fun p k => blk0_row V c t ht p k) (blk1_whole V c t) p q

/-- An index of the result array is in point t's block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v31).slice (win0_2.rect t)).set ↔ _
  rw [View.set_slice_whole, Rect.mem_set_unit]
  exact Iff.rfl

/-- Every index of the result array lies in the block of point (row / 5000), which is written back. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  refine ⟨⟨(i 0).val / 5000, by show (i 0).val / 5000 < 10; omega⟩, flush0_2 _, ?_⟩
  rw [mem_blk]
  obtain ⟨-, -, -, -, e4, e5⟩ := idx_facts ⟨(i 0).val / 5000, by show (i 0).val / 5000 < 10; omega⟩
  intro a
  match a with
  | ⟨0, _⟩ =>
    show win0_2.index _ (0 : Fin 2) * 5000 ≤ (i 0).val ∧ (i 0).val < win0_2.index _ (0 : Fin 2) * 5000 + 5000
    rw [e4]; show (i 0).val / 5000 * 5000 ≤ (i 0).val ∧ (i 0).val < (i 0).val / 5000 * 5000 + 5000; omega
  | ⟨1, _⟩ =>
    show win0_2.index _ (1 : Fin 2) * 128 ≤ (i 1).val ∧ (i 1).val < win0_2.index _ (1 : Fin 2) * 128 + 128
    rw [e5]; omega

/-- THE RESULT ARRAY after the region: the whole product of the arrays as the region found them. -/
theorem final (c : Dev nD) : (dat0 V c).arrAt 2 cfg0.N = G V c :=
  (dat0 V c).arrAt_eq_of_cover 2 (G V c) (fun t _ => flushed_eq V c t) (fun i => cover i)

end Cert.KernelIdeal.Region0

end
-- ==== Proof.PayRelu.lean ====
/-
  The bias-and-relu regions' body at one entry: max(x(p, q) + b(0, q), 0), which for a block that is rows
  T·5000 … of `Y` is the entry (T·5000 + p, q) of the whole-array `max(Y + B, 0)`.
-/
import proofs.«419310_j55920474193966_1_alg».proof.Proof.Gen.KernelIdeal.Skeleton
import proofs.«419310_j55920474193966_1_alg».proof.Proof.Stages
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayRelu

open Idealize.ShloMosaic Idealize.ShloMosaic.ValueIdx Cert.KernelIdeal Cert.KernelIdeal.Gen

/-- The region's body read at one entry: the block entry plus the bias row's entry of that column, against zero. -/
theorem k1_pay1_apply (x0 : Vec Ideal S5000x128 .f32) (x1 : Vec Ideal S1x128 .f32) (p : Fin 5000) (q : Fin 128) :
    k1_pay1 (F := Ideal) x0 x1 (ix2 p q) = max (x0 (ix2 p q) + x1 (ix2 0 q)) 0 := by
  unfold k1_pay1
  rw [maximumf_apply, addf_apply, broadcast_apply, shapeCast_self, shapeCast_self]
  rw [broadcastTo_apply x1 broadcasts_S1x128_S5000x128 (ix2 p q) (ix2 0 q) (fun a => match a with
    | ⟨0, _⟩ => by show 0 = if (1 : Nat) = 1 then 0 else _; rw [if_pos rfl]
    | ⟨1, _⟩ => by show q.val = if (128 : Nat) = 1 then 0 else q.val; rw [if_neg (by decide)])]
  show max _ (Ideal.ofBits .f32 0x00000000#32) = _
  rw [Ideal.ofBits_zero_f32]

/-- The whole-array `max(Y + B, 0)` read at one entry. -/
theorem biasRelu_apply (Y : FVec Ideal S50000x128 .f32) (B : FVec Ideal S1x128 .f32) (r : Fin 50000) (q : Fin 128) :
    Cert.Stages.biasRelu Y B (ix2 r q) = max (Y (ix2 r q) + B (ix2 0 q)) 0 := by
  unfold Cert.Stages.biasRelu
  rw [maximumf_apply, addf_apply]
  rw [broadcastInDim_apply _ Cert.ReferenceIdeal.Facts₀.bcast_S1x128_S50000x128_0_1 B (ix2 r q) (ix2 0 q) (fun a => match a with
    | ⟨0, _⟩ => by show 0 = if (1 : Nat) = 1 then 0 else _; rw [if_pos rfl]
    | ⟨1, _⟩ => by show q.val = if (128 : Nat) = 1 then 0 else q.val; rw [if_neg (by decide)])]
  rw [broadcastInDim_apply _ Cert.ReferenceIdeal.Facts₀.bcast_S_S50000x128 _ (ix2 r q) (fun a => a.elim0) (fun a => a.elim0)]
  rw [constant_apply, Ideal.ofBits_zero_f32]

/-- Region 1 (first layer). -/
theorem pay1_row (Y : FVec Ideal S50000x128 .f32) (B : FVec Ideal S1x128 .f32)
    (x0 : Vec Ideal S5000x128 .f32) (x1 : Vec Ideal S1x128 .f32) (T : Nat) (hT : T < 10)
    (hx0 : ∀ (p : Fin 5000) (k : Fin 128), x0 (ix2 p k) = Y (ix2 ⟨T * 5000 + p.val, by omega⟩ k))
    (hx1 : x1 = B) (p : Fin 5000) (q : Fin 128) :
    k1_pay1 (F := Ideal) x0 x1 (ix2 p q) = Cert.Stages.biasRelu Y B (ix2 ⟨T * 5000 + p.val, by omega⟩ q) := by
  rw [k1_pay1_apply, biasRelu_apply, hx0 p q, hx1]

/-- Region 3 (second layer): the same body. -/
theorem pay3_row (Y : FVec Ideal S50000x128 .f32) (B : FVec Ideal S1x128 .f32)
    (x0 : Vec Ideal S5000x128 .f32) (x1 : Vec Ideal S1x128 .f32) (T : Nat) (hT : T < 10)
    (hx0 : ∀ (p : Fin 5000) (k : Fin 128), x0 (ix2 p k) = Y (ix2 ⟨T * 5000 + p.val, by omega⟩ k))
    (hx1 : x1 = B) (p : Fin 5000) (q : Fin 128) :
    k3_pay1 (F := Ideal) x0 x1 (ix2 p q) = Cert.Stages.biasRelu Y B (ix2 ⟨T * 5000 + p.val, by omega⟩ q) := by
  exact pay1_row Y B x0 x1 T hT hx0 hx1 p q

end Cert.KernelIdeal.PayRelu

end
-- ==== Proof.Region1.lean ====
/-
  Region 1 (the first layer's bias and relu), lifted from blocks to the whole array.

  Point t of the ten stages rows t·5000 … t·5000 + 4999 of the aggregated features and the whole bias row, and
  writes back the same rows of max(Y + b, 0).  The body's value at (p, q) of the block is the entry (t·5000 + p, q) of
  the whole-array max(Y + B, 0) (the body lemma), every row of the result lies in exactly the block of point r / 5000,
  and so after the ten write-backs the result array IS that whole-array function of the arrays as the region found them.
-/
import proofs.«419310_j55920474193966_1_alg».proof.Proof.Gen.KernelIdeal.Frame
import proofs.«419310_j55920474193966_1_alg».proof.Proof.PayRelu
import Idealize.ShloMosaic.Lib.Pipeline.Value
import Idealize.ShloMosaic.Lib.ValueIdx

set_option maxRecDepth 16384

noncomputable section

namespace Cert.KernelIdeal.Region1

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block indices over the grid: the row operand and the result move with the point, the second operand stays. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The arrays as the region finds them, at their literal types. -/
abbrev lhs (c : Dev nD) : FVec Ideal S50000x128 .f32 := V c main_v44
abbrev rhs (c : Dev nD) : FVec Ideal S1x128 .f32 := V c main_v45

/-- The whole array the region leaves. -/
abbrev G (c : Dev nD) : FVec Ideal S50000x128 .f32 := Cert.Stages.biasRelu (lhs V c) (rhs V c)

/-- Point t's block of the row operand is rows t·5000 … of it. -/
theorem blk0_row (c : Dev nD) (t : Fin cfg1.N) (ht : t.val < 10) (p : Fin 5000) (k : Fin 128) :
    iblk1 V c 0 t (ix2 p k) = lhs V c (ix2 ⟨t.val * 5000 + p.val, by omega⟩ k) := by
  show V c main_v44 (((cfg1.win 0).blk t).view.emb (ix2 p k)) = V c main_v44 _
  refine congrArg (V c main_v44) ?_
  obtain ⟨e0, e1, -⟩ := idx_facts t
  funext a; apply Fin.ext
  match a with
  | ⟨0, _⟩ => show win1_0.index t (0 : Fin 2) * 5000 + 1 * p.val = t.val * 5000 + p.val; rw [e0]; omega
  | ⟨1, _⟩ => show win1_0.index t (1 : Fin 2) * 128 + 1 * k.val = k.val; rw [e1]; omega

/-- Every point's block of the second operand is the whole of it. -/
theorem blk1_whole (c : Dev nD) (t : Fin cfg1.N) : iblk1 V c 1 t = rhs V c := by
  funext j
  show V c main_v45 (((cfg1.win 1).blk t).view.emb j) = V c main_v45 j
  refine congrArg (V c main_v45) ?_
  obtain ⟨-, -, e2, e3, -⟩ := idx_facts t
  funext a; apply Fin.ext
  match a with
  | ⟨0, _⟩ => show win1_1.index t (0 : Fin 2) * 1 + 1 * (j 0).val = (j 0).val; rw [e2]; omega
  | ⟨1, _⟩ => show win1_1.index t (1 : Fin 2) * 128 + 1 * (j 1).val = (j 1).val; rw [e3]; omega

/-- What point t writes back is block t of the whole product. -/
theorem flushed_eq (c : Dev nD) (t : Fin cfg1.N) :
    (dat1 V c).flushed 2 t = ((cfg1.win 2).blk t).view.read (Elt Ideal) (G V c) := by
  have ht : t.val < 10 := t.isLt
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  funext j
  obtain ⟨p, q, rfl⟩ : ∃ (p : Fin 5000) (q : Fin 128), j = ix2 p q := ⟨j 0, j 1, eq_ix2 j⟩
  show k1_pay1 (iblk1 V c 0 t) (iblk1 V c 1 t) (ix2 p q) = G V c (((cfg1.win 2).blk t).view.emb (ix2 p q))
  have hemb : ((cfg1.win 2).blk t).view.emb (ix2 p q) = ix2 ⟨t.val * 5000 + p.val, by omega⟩ q := by
    obtain ⟨-, -, -, -, e4, e5⟩ := idx_facts t
    funext a; apply Fin.ext
    match a with
    | ⟨0, _⟩ => show win1_2.index t (0 : Fin 2) * 5000 + 1 * p.val = t.val * 5000 + p.val; rw [e4]; omega
    | ⟨1, _⟩ => show win1_2.index t (1 : Fin 2) * 128 + 1 * q.val = q.val; rw [e5]; omega
  rw [hemb]
  exact Cert.KernelIdeal.PayRelu.pay1_row (lhs V c) (rhs V c) (iblk1 V c 0 t) (iblk1 V c 1 t) t.val ht
    (fun p k => blk0_row V c t ht p k) (blk1_whole V c t) p q

/-- An index of the result array is in point t's block iff each coordinate is in the block's range on its axis. -/
theorem mem_blk (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v46).slice (win1_2.rect t)).set ↔ _
  rw [View.set_slice_whole, Rect.mem_set_unit]
  exact Iff.rfl

/-- Every index of the result array lies in the block of point (row / 5000), which is written back. -/
theorem cover (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  refine ⟨⟨(i 0).val / 5000, by show (i 0).val / 5000 < 10; omega⟩, flush1_2 _, ?_⟩
  rw [mem_blk]
  obtain ⟨-, -, -, -, e4, e5⟩ := idx_facts ⟨(i 0).val / 5000, by show (i 0).val / 5000 < 10; omega⟩
  intro a
  match a with
  | ⟨0, _⟩ =>
    show win1_2.index _ (0 : Fin 2) * 5000 ≤ (i 0).val ∧ (i 0).val < win1_2.index _ (0 : Fin 2) * 5000 + 5000
    rw [e4]; show (i 0).val / 5000 * 5000 ≤ (i 0).val ∧ (i 0).val < (i 0).val / 5000 * 5000 + 5000; omega
  | ⟨1, _⟩ =>
    show win1_2.index _ (1 : Fin 2) * 128 ≤ (i 1).val ∧ (i 1).val < win1_2.index _ (1 : Fin 2) * 128 + 128
    rw [e5]; omega

/-- THE RESULT ARRAY after the region: the whole product of the arrays as the region found them. -/
theorem final (c : Dev nD) : (dat1 V c).arrAt 2 cfg1.N = G V c :=
  (dat1 V c).arrAt_eq_of_cover 2 (G V c) (fun t _ => flushed_eq V c t) (fun i => cover i)

end Cert.KernelIdeal.Region1

end
-- ==== Proof.Region2.lean ====
/-
  Region 2 (the second layer's dense product), lifted from blocks to the whole array.

  Point t of the ten stages rows t·5000 … t·5000 + 4999 of the left operand, the whole weight, and writes back rows
  t·5000 … of the result.  The body's value at (p, q) of the block is the entry (t·5000 + p, q) of the whole product
  (the body lemma), every row of the result lies in exactly the block of point r / 5000, and so after the ten
  write-backs the result array IS the whole product of the arrays as the region found them.
-/
import proofs.«419310_j55920474193966_1_alg».proof.Proof.Gen.KernelIdeal.Frame
import proofs.«419310_j55920474193966_1_alg».proof.Proof.PayMM
import Idealize.ShloMosaic.Lib.Pipeline.Value
import Idealize.ShloMosaic.Lib.ValueIdx

set_option maxRecDepth 16384

noncomputable section

namespace Cert.KernelIdeal.Region2

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block indices over the grid: the row operand and the result move with the point, the second operand stays. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The arrays as the region finds them, at their literal types. -/
abbrev lhs (c : Dev nD) : FVec Ideal S50000x128 .f32 := V c main_v46
abbrev rhs (c : Dev nD) : FVec Ideal S128x128 .f32 := V c main_arg4

/-- The whole array the region leaves. -/
abbrev G (c : Dev nD) : FVec Ideal S50000x128 .f32 := Cert.Stages.mm128 (lhs V c) (rhs V c)

/-- Point t's block of the row operand is rows t·5000 … of it. -/
theorem blk0_row (c : Dev nD) (t : Fin cfg2.N) (ht : t.val < 10) (p : Fin 5000) (k : Fin 128) :
    iblk2 V c 0 t (ix2 p k) = lhs V c (ix2 ⟨t.val * 5000 + p.val, by omega⟩ k) := by
  show V c main_v46 (((cfg2.win 0).blk t).view.emb (ix2 p k)) = V c main_v46 _
  refine congrArg (V c main_v46) ?_
  obtain ⟨e0, e1, -⟩ := idx_facts t
  funext a; apply Fin.ext
  match a with
  | ⟨0, _⟩ => show win2_0.index t (0 : Fin 2) * 5000 + 1 * p.val = t.val * 5000 + p.val; rw [e0]; omega
  | ⟨1, _⟩ => show win2_0.index t (1 : Fin 2) * 128 + 1 * k.val = k.val; rw [e1]; omega

/-- Every point's block of the second operand is the whole of it. -/
theorem blk1_whole (c : Dev nD) (t : Fin cfg2.N) : iblk2 V c 1 t = rhs V c := by
  funext j
  show V c main_arg4 (((cfg2.win 1).blk t).view.emb j) = V c main_arg4 j
  refine congrArg (V c main_arg4) ?_
  obtain ⟨-, -, e2, e3, -⟩ := idx_facts t
  funext a; apply Fin.ext
  match a with
  | ⟨0, _⟩ => show win2_1.index t (0 : Fin 2) * 128 + 1 * (j 0).val = (j 0).val; rw [e2]; omega
  | ⟨1, _⟩ => show win2_1.index t (1 : Fin 2) * 128 + 1 * (j 1).val = (j 1).val; rw [e3]; omega

/-- What point t writes back is block t of the whole product. -/
theorem flushed_eq (c : Dev nD) (t : Fin cfg2.N) :
    (dat2 V c).flushed 2 t = ((cfg2.win 2).blk t).view.read (Elt Ideal) (G V c) := by
  have ht : t.val < 10 := t.isLt
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  funext j
  obtain ⟨p, q, rfl⟩ : ∃ (p : Fin 5000) (q : Fin 128), j = ix2 p q := ⟨j 0, j 1, eq_ix2 j⟩
  show k2_pay1 (iblk2 V c 0 t) (iblk2 V c 1 t) (ix2 p q) = G V c (((cfg2.win 2).blk t).view.emb (ix2 p q))
  have hemb : ((cfg2.win 2).blk t).view.emb (ix2 p q) = ix2 ⟨t.val * 5000 + p.val, by omega⟩ q := by
    obtain ⟨-, -, -, -, e4, e5⟩ := idx_facts t
    funext a; apply Fin.ext
    match a with
    | ⟨0, _⟩ => show win2_2.index t (0 : Fin 2) * 5000 + 1 * p.val = t.val * 5000 + p.val; rw [e4]; omega
    | ⟨1, _⟩ => show win2_2.index t (1 : Fin 2) * 128 + 1 * q.val = q.val; rw [e5]; omega
  rw [hemb]
  exact Cert.KernelIdeal.PayMM.pay2_row (lhs V c) (rhs V c) (iblk2 V c 0 t) (iblk2 V c 1 t) t.val ht
    (fun p k => blk0_row V c t ht p k) (blk1_whole V c t) p q

/-- An index of the result array is in point t's block iff each coordinate is in the block's range on its axis. -/
theorem mem_blk (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v47).slice (win2_2.rect t)).set ↔ _
  rw [View.set_slice_whole, Rect.mem_set_unit]
  exact Iff.rfl

/-- Every index of the result array lies in the block of point (row / 5000), which is written back. -/
theorem cover (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  refine ⟨⟨(i 0).val / 5000, by show (i 0).val / 5000 < 10; omega⟩, flush2_2 _, ?_⟩
  rw [mem_blk]
  obtain ⟨-, -, -, -, e4, e5⟩ := idx_facts ⟨(i 0).val / 5000, by show (i 0).val / 5000 < 10; omega⟩
  intro a
  match a with
  | ⟨0, _⟩ =>
    show win2_2.index _ (0 : Fin 2) * 5000 ≤ (i 0).val ∧ (i 0).val < win2_2.index _ (0 : Fin 2) * 5000 + 5000
    rw [e4]; show (i 0).val / 5000 * 5000 ≤ (i 0).val ∧ (i 0).val < (i 0).val / 5000 * 5000 + 5000; omega
  | ⟨1, _⟩ =>
    show win2_2.index _ (1 : Fin 2) * 128 ≤ (i 1).val ∧ (i 1).val < win2_2.index _ (1 : Fin 2) * 128 + 128
    rw [e5]; omega

/-- THE RESULT ARRAY after the region: the whole product of the arrays as the region found them. -/
theorem final (c : Dev nD) : (dat2 V c).arrAt 2 cfg2.N = G V c :=
  (dat2 V c).arrAt_eq_of_cover 2 (G V c) (fun t _ => flushed_eq V c t) (fun i => cover i)

end Cert.KernelIdeal.Region2

end
-- ==== Proof.Region3.lean ====
/-
  Region 3 (the second layer's bias and relu), lifted from blocks to the whole array.

  Point t of the ten stages rows t·5000 … t·5000 + 4999 of the aggregated features and the whole bias row, and
  writes back the same rows of max(Y + b, 0).  The body's value at (p, q) of the block is the entry (t·5000 + p, q) of
  the whole-array max(Y + B, 0) (the body lemma), every row of the result lies in exactly the block of point r / 5000,
  and so after the ten write-backs the result array IS that whole-array function of the arrays as the region found them.
-/
import proofs.«419310_j55920474193966_1_alg».proof.Proof.Gen.KernelIdeal.Frame
import proofs.«419310_j55920474193966_1_alg».proof.Proof.PayRelu
import Idealize.ShloMosaic.Lib.Pipeline.Value
import Idealize.ShloMosaic.Lib.ValueIdx

set_option maxRecDepth 16384

noncomputable section

namespace Cert.KernelIdeal.Region3

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block indices over the grid: the row operand and the result move with the point, the second operand stays. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The arrays as the region finds them, at their literal types. -/
abbrev lhs (c : Dev nD) : FVec Ideal S50000x128 .f32 := V c main_v60
abbrev rhs (c : Dev nD) : FVec Ideal S1x128 .f32 := V c main_v61

/-- The whole array the region leaves. -/
abbrev G (c : Dev nD) : FVec Ideal S50000x128 .f32 := Cert.Stages.biasRelu (lhs V c) (rhs V c)

/-- Point t's block of the row operand is rows t·5000 … of it. -/
theorem blk0_row (c : Dev nD) (t : Fin cfg3.N) (ht : t.val < 10) (p : Fin 5000) (k : Fin 128) :
    iblk3 V c 0 t (ix2 p k) = lhs V c (ix2 ⟨t.val * 5000 + p.val, by omega⟩ k) := by
  show V c main_v60 (((cfg3.win 0).blk t).view.emb (ix2 p k)) = V c main_v60 _
  refine congrArg (V c main_v60) ?_
  obtain ⟨e0, e1, -⟩ := idx_facts t
  funext a; apply Fin.ext
  match a with
  | ⟨0, _⟩ => show win3_0.index t (0 : Fin 2) * 5000 + 1 * p.val = t.val * 5000 + p.val; rw [e0]; omega
  | ⟨1, _⟩ => show win3_0.index t (1 : Fin 2) * 128 + 1 * k.val = k.val; rw [e1]; omega

/-- Every point's block of the second operand is the whole of it. -/
theorem blk1_whole (c : Dev nD) (t : Fin cfg3.N) : iblk3 V c 1 t = rhs V c := by
  funext j
  show V c main_v61 (((cfg3.win 1).blk t).view.emb j) = V c main_v61 j
  refine congrArg (V c main_v61) ?_
  obtain ⟨-, -, e2, e3, -⟩ := idx_facts t
  funext a; apply Fin.ext
  match a with
  | ⟨0, _⟩ => show win3_1.index t (0 : Fin 2) * 1 + 1 * (j 0).val = (j 0).val; rw [e2]; omega
  | ⟨1, _⟩ => show win3_1.index t (1 : Fin 2) * 128 + 1 * (j 1).val = (j 1).val; rw [e3]; omega

/-- What point t writes back is block t of the whole product. -/
theorem flushed_eq (c : Dev nD) (t : Fin cfg3.N) :
    (dat3 V c).flushed 2 t = ((cfg3.win 2).blk t).view.read (Elt Ideal) (G V c) := by
  have ht : t.val < 10 := t.isLt
  show (cfg3.win 2).cut (grid3.coords t) ((dat3 V c).after 2 t) = _
  rw [after3_2]
  unfold out3_2
  rw [View.canon_unit_zero hz]
  simp only [View.ld_unit_zero (S := S5000x128) hz, View.ld_unit_zero (S := S1x128) hz]
  funext j
  obtain ⟨p, q, rfl⟩ : ∃ (p : Fin 5000) (q : Fin 128), j = ix2 p q := ⟨j 0, j 1, eq_ix2 j⟩
  show k3_pay1 (iblk3 V c 0 t) (iblk3 V c 1 t) (ix2 p q) = G V c (((cfg3.win 2).blk t).view.emb (ix2 p q))
  have hemb : ((cfg3.win 2).blk t).view.emb (ix2 p q) = ix2 ⟨t.val * 5000 + p.val, by omega⟩ q := by
    obtain ⟨-, -, -, -, e4, e5⟩ := idx_facts t
    funext a; apply Fin.ext
    match a with
    | ⟨0, _⟩ => show win3_2.index t (0 : Fin 2) * 5000 + 1 * p.val = t.val * 5000 + p.val; rw [e4]; omega
    | ⟨1, _⟩ => show win3_2.index t (1 : Fin 2) * 128 + 1 * q.val = q.val; rw [e5]; omega
  rw [hemb]
  exact Cert.KernelIdeal.PayRelu.pay3_row (lhs V c) (rhs V c) (iblk3 V c 0 t) (iblk3 V c 1 t) t.val ht
    (fun p k => blk0_row V c t ht p k) (blk1_whole V c t) p q

/-- An index of the result array is in point t's block iff each coordinate is in the block's range on its axis. -/
theorem mem_blk (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v62).slice (win3_2.rect t)).set ↔ _
  rw [View.set_slice_whole, Rect.mem_set_unit]
  exact Iff.rfl

/-- Every index of the result array lies in the block of point (row / 5000), which is written back. -/
theorem cover (i : S50000x128.Idx) : ∃ t : Fin cfg3.N, (cfg3.win 2).flush t = true ∧ i ∈ ((cfg3.win 2).blk t).view.set := by
  have hi0 : (i 0).val < 50000 := (i 0).isLt
  have hi1 : (i 1).val < 128 := (i 1).isLt
  refine ⟨⟨(i 0).val / 5000, by show (i 0).val / 5000 < 10; omega⟩, flush3_2 _, ?_⟩
  rw [mem_blk]
  obtain ⟨-, -, -, -, e4, e5⟩ := idx_facts ⟨(i 0).val / 5000, by show (i 0).val / 5000 < 10; omega⟩
  intro a
  match a with
  | ⟨0, _⟩ =>
    show win3_2.index _ (0 : Fin 2) * 5000 ≤ (i 0).val ∧ (i 0).val < win3_2.index _ (0 : Fin 2) * 5000 + 5000
    rw [e4]; show (i 0).val / 5000 * 5000 ≤ (i 0).val ∧ (i 0).val < (i 0).val / 5000 * 5000 + 5000; omega
  | ⟨1, _⟩ =>
    show win3_2.index _ (1 : Fin 2) * 128 ≤ (i 1).val ∧ (i 1).val < win3_2.index _ (1 : Fin 2) * 128 + 128
    rw [e5]; omega

/-- THE RESULT ARRAY after the region: the whole product of the arrays as the region found them. -/
theorem final (c : Dev nD) : (dat3 V c).arrAt 2 cfg3.N = G V c :=
  (dat3 V c).arrAt_eq_of_cover 2 (G V c) (fun t _ => flushed_eq V c t) (fun i => cover i)

end Cert.KernelIdeal.Region3

end
-- ==== Proof.Region4.lean ====
/-
  Region 4 (the output layer's dense product, 128 to 40 columns), lifted from blocks to the whole array.

  Point t of the ten stages rows t·5000 … t·5000 + 4999 of the left operand, the whole 128 × 40 weight, and writes
  back rows t·5000 … of the 40-column result.  The body's value at (p, q) of the block is the entry (t·5000 + p, q) of
  the whole product (the body lemma), every row of the result lies in exactly the block of point r / 5000, and so
  after the ten write-backs the result array IS the whole product of the arrays as the region found them.
-/
import proofs.«419310_j55920474193966_1_alg».proof.Proof.Gen.KernelIdeal.Frame
import proofs.«419310_j55920474193966_1_alg».proof.Proof.PayMM
import Idealize.ShloMosaic.Lib.Pipeline.Value
import Idealize.ShloMosaic.Lib.ValueIdx

set_option maxRecDepth 16384

noncomputable section

namespace Cert.KernelIdeal.Region4

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block indices over the grid: the row operand and the result move with the point, the second operand stays. -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The arrays as the region finds them, at their literal types. -/
abbrev lhs (c : Dev nD) : FVec Ideal S50000x128 .f32 := V c main_v62
abbrev rhs (c : Dev nD) : FVec Ideal S128x40 .f32 := V c main_arg6

/-- The whole array the region leaves. -/
abbrev G (c : Dev nD) : FVec Ideal S50000x40 .f32 := Cert.Stages.mm40 (lhs V c) (rhs V c)

/-- Point t's block of the row operand is rows t·5000 … of it. -/
theorem blk0_row (c : Dev nD) (t : Fin cfg4.N) (ht : t.val < 10) (p : Fin 5000) (k : Fin 128) :
    iblk4 V c 0 t (ix2 p k) = lhs V c (ix2 ⟨t.val * 5000 + p.val, by omega⟩ k) := by
  show V c main_v62 (((cfg4.win 0).blk t).view.emb (ix2 p k)) = V c main_v62 _
  refine congrArg (V c main_v62) ?_
  obtain ⟨e0, e1, -⟩ := idx_facts t
  funext a; apply Fin.ext
  match a with
  | ⟨0, _⟩ => show win4_0.index t (0 : Fin 2) * 5000 + 1 * p.val = t.val * 5000 + p.val; rw [e0]; omega
  | ⟨1, _⟩ => show win4_0.index t (1 : Fin 2) * 128 + 1 * k.val = k.val; rw [e1]; omega

/-- Every point's block of the second operand is the whole of it. -/
theorem blk1_whole (c : Dev nD) (t : Fin cfg4.N) : iblk4 V c 1 t = rhs V c := by
  funext j
  show V c main_arg6 (((cfg4.win 1).blk t).view.emb j) = V c main_arg6 j
  refine congrArg (V c main_arg6) ?_
  obtain ⟨-, -, e2, e3, -⟩ := idx_facts t
  funext a; apply Fin.ext
  match a with
  | ⟨0, _⟩ => show win4_1.index t (0 : Fin 2) * 128 + 1 * (j 0).val = (j 0).val; rw [e2]; omega
  | ⟨1, _⟩ => show win4_1.index t (1 : Fin 2) * 40 + 1 * (j 1).val = (j 1).val; rw [e3]; omega

/-- What point t writes back is block t of the whole product. -/
theorem flushed_eq (c : Dev nD) (t : Fin cfg4.N) :
    (dat4 V c).flushed 2 t = ((cfg4.win 2).blk t).view.read (Elt Ideal) (G V c) := by
  have ht : t.val < 10 := t.isLt
  show (cfg4.win 2).cut (grid4.coords t) ((dat4 V c).after 2 t) = _
  rw [after4_2]
  unfold out4_2
  rw [View.canon_unit_zero hz]
  simp only [View.ld_unit_zero (S := S5000x128) hz, View.ld_unit_zero (S := S128x40) hz]
  funext j
  obtain ⟨p, q, rfl⟩ : ∃ (p : Fin 5000) (q : Fin 40), j = ix2 p q := ⟨j 0, j 1, eq_ix2 j⟩
  show k4_pay1 (iblk4 V c 0 t) (iblk4 V c 1 t) (ix2 p q) = G V c (((cfg4.win 2).blk t).view.emb (ix2 p q))
  have hemb : ((cfg4.win 2).blk t).view.emb (ix2 p q) = ix2 ⟨t.val * 5000 + p.val, by omega⟩ q := by
    obtain ⟨-, -, -, -, e4, e5⟩ := idx_facts t
    funext a; apply Fin.ext
    match a with
    | ⟨0, _⟩ => show win4_2.index t (0 : Fin 2) * 5000 + 1 * p.val = t.val * 5000 + p.val; rw [e4]; omega
    | ⟨1, _⟩ => show win4_2.index t (1 : Fin 2) * 40 + 1 * q.val = q.val; rw [e5]; omega
  rw [hemb]
  exact Cert.KernelIdeal.PayMM.pay4_row (lhs V c) (rhs V c) (iblk4 V c 0 t) (iblk4 V c 1 t) t.val ht
    (fun p k => blk0_row V c t ht p k) (blk1_whole V c t) p q

/-- An index of the result array is in point t's block iff each coordinate is in the block's range on its axis. -/
theorem mem_blk (t : Fin cfg4.N) (i : S50000x40.Idx) :
    i ∈ ((cfg4.win 2).blk t).view.set ↔ ∀ a : Fin 2, win4_2.index t a * S5000x40.size a ≤ (i a).val ∧ (i a).val < win4_2.index t a * S5000x40.size a + S5000x40.size a := by
  show i ∈ ((View.whole main_v63).slice (win4_2.rect t)).set ↔ _
  rw [View.set_slice_whole, Rect.mem_set_unit]
  exact Iff.rfl

/-- Every index of the result array lies in the block of point (row / 5000), which is written back. -/
theorem cover (i : S50000x40.Idx) : ∃ t : Fin cfg4.N, (cfg4.win 2).flush t = true ∧ i ∈ ((cfg4.win 2).blk t).view.set := by
  have hi0 : (i 0).val < 50000 := (i 0).isLt
  have hi1 : (i 1).val < 40 := (i 1).isLt
  refine ⟨⟨(i 0).val / 5000, by show (i 0).val / 5000 < 10; omega⟩, flush4_2 _, ?_⟩
  rw [mem_blk]
  obtain ⟨-, -, -, -, e4, e5⟩ := idx_facts ⟨(i 0).val / 5000, by show (i 0).val / 5000 < 10; omega⟩
  intro a
  match a with
  | ⟨0, _⟩ =>
    show win4_2.index _ (0 : Fin 2) * 5000 ≤ (i 0).val ∧ (i 0).val < win4_2.index _ (0 : Fin 2) * 5000 + 5000
    rw [e4]; show (i 0).val / 5000 * 5000 ≤ (i 0).val ∧ (i 0).val < (i 0).val / 5000 * 5000 + 5000; omega
  | ⟨1, _⟩ =>
    show win4_2.index _ (1 : Fin 2) * 40 ≤ (i 1).val ∧ (i 1).val < win4_2.index _ (1 : Fin 2) * 40 + 40
    rw [e5]; omega

/-- THE RESULT ARRAY after the region: the whole product of the arrays as the region found them. -/
theorem final (c : Dev nD) : (dat4 V c).arrAt 2 cfg4.N = G V c :=
  (dat4 V c).arrAt_eq_of_cover 2 (G V c) (fun t _ => flushed_eq V c t) (fun i => cover i)

end Cert.KernelIdeal.Region4

end
-- ==== Proof.PayLsm.lean ====
/-
  The last region's body at one entry: the bias added, then the row's log-softmax in the shifted form (row maximum
  from -∞, exponentials, their sum from 0, logarithm).  Every quantity of row p of the block depends on that row
  only, so for a block that is rows T·5000 … of `Y` the entry (p, q) is the entry (T·5000 + p, q) of the
  whole-array bias + log-softmax.
-/
import proofs.«419310_j55920474193966_1_alg».proof.Proof.Gen.KernelIdeal.Skeleton
import proofs.«419310_j55920474193966_1_alg».proof.Proof.Stages
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayLsm

open Idealize.ShloMosaic Idealize.ShloMosaic.ValueIdx Cert.KernelIdeal Cert.KernelIdeal.Gen

/-- The index a one-axis reduction of a two-axis array inserts: row `j`, column `k`. -/
theorem lift_eq_ix2 {n m : Nat} (h : (⟨2, ![n, m]⟩ : Shape).Reduces [1] ⟨1, ![n]⟩) (j : (⟨1, ![n]⟩ : Shape).Idx) (k : Fin m) :
    h.lift j k = ix2 (j 0) k := by
  funext c
  match c with
  | ⟨0, _⟩ => exact Fin.ext rfl
  | ⟨1, _⟩ => exact Fin.ext rfl

theorem rowMax_apply (v : FVec Ideal S5000x40 .f32) (h : S5000x40.Reduces [1] S5000) (hφ : FKind.Formats .f32)
    (hacc : (0xFF800000#32 : BitVec 32) = FKind.maximumf.neutral .f32 hφ) (p : Fin 5000) :
    multiReduction .maximumf [1] S5000 v 0xFF800000#32 h hφ hacc (ix1 p)
      = (Finset.univ : Finset (Fin 40)).fold max (Ideal.ofBits .f32 0xFF800000#32) (fun k => v (ix2 p k)) := by
  refine (Ideal.multiReduction_maximumf_single v _ h hφ hacc (ix1 p)).trans ?_
  show (Finset.univ : Finset (Fin 40)).fold max (Ideal.ofBits .f32 0xFF800000#32) (v ∘ h.lift (ix1 p)) = _
  have e : (v ∘ h.lift (ix1 p)) = fun k => v (ix2 p k) := funext fun k => congrArg v (lift_eq_ix2 h (ix1 p) k)
  rw [e]; rfl

theorem rowSum_apply (v : FVec Ideal S5000x40 .f32) (h : S5000x40.Reduces [1] S5000) (hφ : FKind.Formats .f32)
    (hacc : (0x00000000#32 : BitVec 32) = FKind.add.neutral .f32 hφ) (p : Fin 5000) :
    multiReduction .add [1] S5000 v 0x00000000#32 h hφ hacc (ix1 p) = ∑ k : Fin 40, v (ix2 p k) := by
  refine (Ideal.multiReduction_add_single v _ h hφ hacc (ix1 p)).trans ?_
  show ∑ k : Fin 40, v (h.lift (ix1 p) k) = _
  exact Finset.sum_congr rfl fun k _ => congrArg v (lift_eq_ix2 h (ix1 p) k)

theorem col_apply {α : Type} (v : S5000.Idx → α) (h : S5000.ShapeCasts S5000x1) (p : Fin 5000) (r : Fin 1) :
    shapeCast S5000x1 v h (ix2 p r) = v (ix1 p) := by
  refine shapeCast_apply v h (ix2 p r) (ix1 p) ?_
  rw [Shape.rowMajor_val_one, Shape.rowMajor_val_two]
  show p.val = p.val * 1 + r.val
  have := r.isLt
  omega

theorem colBcast_apply {α : Type} (v : S5000x1.Idx → α) (h : S5000x1.Broadcasts S5000x40) (p : Fin 5000) (q : Fin 40) :
    broadcastTo S5000x40 v h (ix2 p q) = v (ix2 p (0 : Fin 1)) := by
  refine broadcastTo_apply v h (ix2 p q) (ix2 p (0 : Fin 1)) fun ax => ?_
  match ax with
  | ⟨0, _⟩ => show p.val = if (5000 : Nat) = 1 then 0 else p.val; rw [if_neg (by decide)]
  | ⟨1, _⟩ => show 0 = if (1 : Nat) = 1 then 0 else q.val; rw [if_pos rfl]

/-- The shifted log-softmax of a row `y` of 40 entries, read at `q`: with M the fold of `max` from -∞ over the row,
    (y q - M) - log (Σ_k exp (y k - M)). -/
def lsmRow (y : Fin 40 → EReal) (q : Fin 40) : EReal :=
  (y q - (Finset.univ : Finset (Fin 40)).fold max (Ideal.ofBits .f32 0xFF800000#32) y)
    - Ideal.log (∑ k : Fin 40, Ideal.exp (y k - (Finset.univ : Finset (Fin 40)).fold max (Ideal.ofBits .f32 0xFF800000#32) y))

/-- The kernel's row log-softmax of a 5000 × 40 block `v`, read at (p, q). -/
theorem blockLsm_apply (v : FVec Ideal S5000x40 .f32) (hr : S5000x40.Reduces [1] S5000) (hc : S5000.ShapeCasts S5000x1)
    (hb : S5000x1.Broadcasts S5000x40) (hφ : FKind.Formats .f32)
    (hmax : (0xFF800000#32 : BitVec 32) = FKind.maximumf.neutral .f32 hφ)
    (hadd : (0x00000000#32 : BitVec 32) = FKind.add.neutral .f32 hφ) (p : Fin 5000) (q : Fin 40) :
    subf (subf v (broadcastTo S5000x40 (shapeCast S5000x1 (multiReduction .maximumf [1] S5000 v 0xFF800000#32 hr hφ hmax) hc) hb))
        (broadcastTo S5000x40 (log (shapeCast S5000x1
          (multiReduction .add [1] S5000
            (exp (subf v (broadcastTo S5000x40 (shapeCast S5000x1 (multiReduction .maximumf [1] S5000 v 0xFF800000#32 hr hφ hmax) hc) hb)))
            0x00000000#32 hr hφ hadd) hc)) hb) (ix2 p q)
      = lsmRow (fun k => v (ix2 p k)) q := by
  have hs : ∀ k : Fin 40,
      subf v (broadcastTo S5000x40 (shapeCast S5000x1 (multiReduction .maximumf [1] S5000 v 0xFF800000#32 hr hφ hmax) hc) hb) (ix2 p k)
        = v (ix2 p k) - (Finset.univ : Finset (Fin 40)).fold max (Ideal.ofBits .f32 0xFF800000#32) (fun k => v (ix2 p k)) := fun k => by
    rw [subf_apply, colBcast_apply, col_apply, rowMax_apply]
  rw [subf_apply, hs, colBcast_apply]
  show _ - Ideal.log (shapeCast S5000x1 _ hc (ix2 p (0 : Fin 1))) = _
  rw [col_apply, rowSum_apply]
  unfold lsmRow
  exact congrArg (fun t => _ - Ideal.log t) (Finset.sum_congr rfl fun k _ => congrArg Ideal.exp (hs k))

/-- Region 5's body at one entry: the row log-softmax of the biased row. -/
theorem k5_apply (x0 : Vec Ideal S5000x40 .f32) (x1 : Vec Ideal S1x40 .f32) (p : Fin 5000) (q : Fin 40) :
    k5_pay1 (F := Ideal) x0 x1 (ix2 p q) = lsmRow (fun k => x0 (ix2 p k) + x1 (ix2 (0 : Fin 1) k)) q := by
  unfold k5_pay1
  refine (blockLsm_apply _ _ _ _ _ _ _ p q).trans ?_
  refine congrArg (fun y => lsmRow y q) (funext fun k => ?_)
  rw [addf_apply, shapeCast_self, shapeCast_self, broadcastTo_1b_ab_apply]

/-! The reference's side: the whole-array bias and row log-softmax read at an entry. -/

theorem hostLog_apply {s : Shape} (x : FVec Ideal s .f32) (i : s.Idx) : Host.log x i = Ideal.log (x i) := rfl

theorem refRowMax_apply (Z : FVec Ideal Cert.ReferenceIdeal.S50000x40 .f32) (c : Cert.ReferenceIdeal.S_.Idx → Ideal .f32)
    (h' : Cert.ReferenceIdeal.S50000x40.ReducesTo [1] Cert.ReferenceIdeal.S50000) (hu : 0 < Cert.ReferenceIdeal.S_.numel)
    (r : Fin 50000) :
    Host.reduce FloatOps.maximumf Z c h' hu (ix1 r)
      = (Finset.univ : Finset (Fin 40)).fold max (c (Shape.Idx.first hu)) (fun k => Z (ix2 r k)) := by
  have h : Cert.ReferenceIdeal.S50000x40.Reduces [1] Cert.ReferenceIdeal.S50000 := by decide
  refine (Host.reduce_eq_fold_single FloatOps.maximumf Z c h' h hu (ix1 r)).trans ?_
  have e : (Z ∘ h.lift (ix1 r)) = fun k => Z (ix2 r k) := funext fun k => congrArg Z (lift_eq_ix2 h (ix1 r) k)
  rw [e]; rfl

theorem refRowSum_apply (S : FVec Ideal Cert.ReferenceIdeal.S50000x40 .f32)
    (h' : Cert.ReferenceIdeal.S50000x40.ReducesTo [1] Cert.ReferenceIdeal.S50000) (hu : 0 < Cert.ReferenceIdeal.S_.numel)
    (r : Fin 50000) :
    Host.reduceAdd (Host.exp S) (constant Cert.ReferenceIdeal.S_ .f32 0x00000000#32) h' hu (ix1 r)
      = ∑ k : Fin 40, Ideal.exp (S (ix2 r k)) := by
  have h : Cert.ReferenceIdeal.S50000x40.Reduces [1] Cert.ReferenceIdeal.S50000 := by decide
  show Ideal.hostReduceAdd h' (Host.exp S) (Ideal.ofBits .f32 0x00000000#32) (ix1 r) = _
  rw [Ideal.hostReduceAdd_single h' h, Ideal.ofBits_zero_f32, zero_add]
  show ∑ k : Fin 40, Host.exp S (h.lift (ix1 r) k) = _
  exact Finset.sum_congr rfl fun k _ => congrArg (fun i => Ideal.exp (S i)) (lift_eq_ix2 h (ix1 r) k)

theorem bcastScalar_apply {α : Type} (c : Cert.ReferenceIdeal.S_.Idx → α)
    (h : Cert.ReferenceIdeal.S_.BroadcastsInDim Cert.ReferenceIdeal.S50000 (![] : Fin 0 → Fin Cert.ReferenceIdeal.S50000.rank))
    (i : Cert.ReferenceIdeal.S50000.Idx) (k : Cert.ReferenceIdeal.S_.Idx) :
    broadcastInDim Cert.ReferenceIdeal.S50000 ![] h c i = c k :=
  broadcastInDim_apply _ h c i k (fun a => a.elim0)

theorem bcastCol_apply {α : Type} (v : Cert.ReferenceIdeal.S50000.Idx → α)
    (h : Cert.ReferenceIdeal.S50000.BroadcastsInDim Cert.ReferenceIdeal.S50000x1 (![0] : Fin 1 → Fin Cert.ReferenceIdeal.S50000x1.rank))
    (r : Fin 50000) (z : Fin 1) :
    broadcastInDim Cert.ReferenceIdeal.S50000x1 ![0] h v (ix2 r z) = v (ix1 r) :=
  broadcastInDim_apply _ h v (ix2 r z) (ix1 r) (fun a => match a with
    | ⟨0, _⟩ => by show r.val = if (50000 : Nat) = 1 then 0 else r.val; rw [if_neg (by decide)])

theorem bcastRowwise_apply {α : Type} (v : Cert.ReferenceIdeal.S50000x1.Idx → α)
    (h : Cert.ReferenceIdeal.S50000x1.BroadcastsInDim Cert.ReferenceIdeal.S50000x40 (![0, 1] : Fin 2 → Fin Cert.ReferenceIdeal.S50000x40.rank))
    (r : Fin 50000) (q : Fin 40) :
    broadcastInDim Cert.ReferenceIdeal.S50000x40 ![0, 1] h v (ix2 r q) = v (ix2 r (0 : Fin 1)) :=
  broadcastInDim_apply _ h v (ix2 r q) (ix2 r (0 : Fin 1)) (fun a => match a with
    | ⟨0, _⟩ => by show r.val = if (50000 : Nat) = 1 then 0 else r.val; rw [if_neg (by decide)]
    | ⟨1, _⟩ => by show 0 = if (1 : Nat) = 1 then 0 else q.val; rw [if_pos rfl])

theorem bcastBias_apply {α : Type} (v : Cert.ReferenceIdeal.S1x40.Idx → α)
    (h : Cert.ReferenceIdeal.S1x40.BroadcastsInDim Cert.ReferenceIdeal.S50000x40 (![0, 1] : Fin 2 → Fin Cert.ReferenceIdeal.S50000x40.rank))
    (r : Fin 50000) (q : Fin 40) :
    broadcastInDim Cert.ReferenceIdeal.S50000x40 ![0, 1] h v (ix2 r q) = v (ix2 (0 : Fin 1) q) :=
  broadcastInDim_apply _ h v (ix2 r q) (ix2 (0 : Fin 1) q) (fun a => match a with
    | ⟨0, _⟩ => by show 0 = if (1 : Nat) = 1 then 0 else r.val; rw [if_pos rfl]
    | ⟨1, _⟩ => by show q.val = if (40 : Nat) = 1 then 0 else q.val; rw [if_neg (by decide)])

/-- The reference's row log-softmax of the 50000 × 40 logits `Z`, read at (r, q): the maximum taken once more against -∞
    is the row's maximum, and the sum's initial value is 0. -/
theorem refLsm_apply (Z : FVec Ideal Cert.ReferenceIdeal.S50000x40 .f32)
    (hb0 : Cert.ReferenceIdeal.S_.BroadcastsInDim Cert.ReferenceIdeal.S50000 (![] : Fin 0 → Fin Cert.ReferenceIdeal.S50000.rank))
    (hr : Cert.ReferenceIdeal.S50000x40.ReducesTo [1] Cert.ReferenceIdeal.S50000) (hu : 0 < Cert.ReferenceIdeal.S_.numel)
    (hb1 : Cert.ReferenceIdeal.S50000.BroadcastsInDim Cert.ReferenceIdeal.S50000x1 (![0] : Fin 1 → Fin Cert.ReferenceIdeal.S50000x1.rank))
    (hb2 : Cert.ReferenceIdeal.S50000x1.BroadcastsInDim Cert.ReferenceIdeal.S50000x40 (![0, 1] : Fin 2 → Fin Cert.ReferenceIdeal.S50000x40.rank))
    (r : Fin 50000) (q : Fin 40) :
    subf (subf Z (broadcastInDim Cert.ReferenceIdeal.S50000x40 ![0, 1] hb2 (broadcastInDim Cert.ReferenceIdeal.S50000x1 ![0] hb1
          (maximumf (broadcastInDim Cert.ReferenceIdeal.S50000 ![] hb0 (constant Cert.ReferenceIdeal.S_ .f32 0xFF800000#32))
            (Host.reduce FloatOps.maximumf Z (constant Cert.ReferenceIdeal.S_ .f32 0xFF800000#32) hr hu)))))
        (broadcastInDim Cert.ReferenceIdeal.S50000x40 ![0, 1] hb2 (Host.log (broadcastInDim Cert.ReferenceIdeal.S50000x1 ![0] hb1
          (Host.reduceAdd (Host.exp (subf Z (broadcastInDim Cert.ReferenceIdeal.S50000x40 ![0, 1] hb2 (broadcastInDim Cert.ReferenceIdeal.S50000x1 ![0] hb1
              (maximumf (broadcastInDim Cert.ReferenceIdeal.S50000 ![] hb0 (constant Cert.ReferenceIdeal.S_ .f32 0xFF800000#32))
                (Host.reduce FloatOps.maximumf Z (constant Cert.ReferenceIdeal.S_ .f32 0xFF800000#32) hr hu))))))
            (constant Cert.ReferenceIdeal.S_ .f32 0x00000000#32) hr hu)))) (ix2 r q)
      = lsmRow (fun k => Z (ix2 r k)) q := by
  have hmx : maximumf (broadcastInDim Cert.ReferenceIdeal.S50000 ![] hb0 (constant Cert.ReferenceIdeal.S_ .f32 0xFF800000#32))
        (Host.reduce FloatOps.maximumf Z (constant Cert.ReferenceIdeal.S_ .f32 0xFF800000#32) hr hu) (ix1 r)
      = (Finset.univ : Finset (Fin 40)).fold max (Ideal.ofBits .f32 0xFF800000#32) (fun k => Z (ix2 r k)) := by
    rw [maximumf_apply, bcastScalar_apply _ _ _ (Shape.Idx.first hu), refRowMax_apply]
    exact max_eq_right ((Finset.le_fold_max _).mpr (Or.inl le_rfl))
  have hs : ∀ k : Fin 40,
      subf Z (broadcastInDim Cert.ReferenceIdeal.S50000x40 ![0, 1] hb2 (broadcastInDim Cert.ReferenceIdeal.S50000x1 ![0] hb1
          (maximumf (broadcastInDim Cert.ReferenceIdeal.S50000 ![] hb0 (constant Cert.ReferenceIdeal.S_ .f32 0xFF800000#32))
            (Host.reduce FloatOps.maximumf Z (constant Cert.ReferenceIdeal.S_ .f32 0xFF800000#32) hr hu)))) (ix2 r k)
        = Z (ix2 r k) - (Finset.univ : Finset (Fin 40)).fold max (Ideal.ofBits .f32 0xFF800000#32) (fun k => Z (ix2 r k)) := fun k => by
    rw [subf_apply, bcastRowwise_apply, bcastCol_apply, hmx]
  rw [subf_apply, hs, bcastRowwise_apply, hostLog_apply, bcastCol_apply, refRowSum_apply]
  unfold lsmRow
  exact congrArg (fun t => _ - Ideal.log t) (Finset.sum_congr rfl fun k _ => congrArg Ideal.exp (hs k))

theorem logSoftmax40_apply (Z : FVec Ideal Cert.ReferenceIdeal.S50000x40 .f32) (r : Fin 50000) (q : Fin 40) :
    Cert.Stages.logSoftmax40 Z (ix2 r q) = lsmRow (fun k => Z (ix2 r k)) q := by
  unfold Cert.Stages.logSoftmax40
  exact refLsm_apply Z _ _ _ _ _ r q

theorem biased40_apply (Y : FVec Ideal Cert.ReferenceIdeal.S50000x40 .f32) (B : FVec Ideal Cert.ReferenceIdeal.S1x40 .f32)
    (r : Fin 50000) (k : Fin 40) :
    Cert.Stages.biased40 Y B (ix2 r k) = Y (ix2 r k) + B (ix2 (0 : Fin 1) k) := by
  unfold Cert.Stages.biased40
  rw [addf_apply, bcastBias_apply]

/-- Region 5. -/
theorem pay5_row (Y : FVec Ideal S50000x40 .f32) (B : FVec Ideal S1x40 .f32)
    (x0 : Vec Ideal S5000x40 .f32) (x1 : Vec Ideal S1x40 .f32) (T : Nat) (hT : T < 10)
    (hx0 : ∀ (p : Fin 5000) (k : Fin 40), x0 (ix2 p k) = Y (ix2 ⟨T * 5000 + p.val, by omega⟩ k))
    (hx1 : x1 = B) (p : Fin 5000) (q : Fin 40) :
    k5_pay1 (F := Ideal) x0 x1 (ix2 p q) = Cert.Stages.biasLogSoftmax Y B (ix2 ⟨T * 5000 + p.val, by omega⟩ q) := by
  rw [k5_apply]
  unfold Cert.Stages.biasLogSoftmax
  rw [logSoftmax40_apply]
  refine congrArg (fun y => lsmRow y q) (funext fun k => ?_)
  rw [biased40_apply, hx0, hx1]

end Cert.KernelIdeal.PayLsm

end
-- ==== Proof.Region5.lean ====
/-
  Region 5 (the output layer's bias and row-wise log-softmax), lifted from blocks to the whole array.

  Point t of the ten stages rows t·5000 … t·5000 + 4999 of the aggregated logits and the whole bias row, and writes
  back the same rows of the log-softmax of the biased logits.  Every quantity of a row (its maximum, the sum of its
  exponentials) depends on that row only, so the body's value at (p, q) of the block is the entry (t·5000 + p, q) of
  the whole-array function (the body lemma); every row of the result lies in exactly the block of point r / 5000, and
  so after the ten write-backs the result array IS that whole-array function of the arrays as the region found them.
-/
import proofs.«419310_j55920474193966_1_alg».proof.Proof.Gen.KernelIdeal.Frame
import proofs.«419310_j55920474193966_1_alg».proof.Proof.PayLsm
import Idealize.ShloMosaic.Lib.Pipeline.Value
import Idealize.ShloMosaic.Lib.ValueIdx

set_option maxRecDepth 16384

noncomputable section

namespace Cert.KernelIdeal.Region5

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block indices over the grid: the row operand and the result move with the point, the second operand stays. -/
theorem idx_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- The arrays as the region finds them, at their literal types. -/
abbrev lhs (c : Dev nD) : FVec Ideal S50000x40 .f32 := V c main_v76
abbrev rhs (c : Dev nD) : FVec Ideal S1x40 .f32 := V c main_v77

/-- The whole array the region leaves. -/
abbrev G (c : Dev nD) : FVec Ideal S50000x40 .f32 := Cert.Stages.biasLogSoftmax (lhs V c) (rhs V c)

/-- Point t's block of the row operand is rows t·5000 … of it. -/
theorem blk0_row (c : Dev nD) (t : Fin cfg5.N) (ht : t.val < 10) (p : Fin 5000) (k : Fin 40) :
    iblk5 V c 0 t (ix2 p k) = lhs V c (ix2 ⟨t.val * 5000 + p.val, by omega⟩ k) := by
  show V c main_v76 (((cfg5.win 0).blk t).view.emb (ix2 p k)) = V c main_v76 _
  refine congrArg (V c main_v76) ?_
  obtain ⟨e0, e1, -⟩ := idx_facts t
  funext a; apply Fin.ext
  match a with
  | ⟨0, _⟩ => show win5_0.index t (0 : Fin 2) * 5000 + 1 * p.val = t.val * 5000 + p.val; rw [e0]; omega
  | ⟨1, _⟩ => show win5_0.index t (1 : Fin 2) * 40 + 1 * k.val = k.val; rw [e1]; omega

/-- Every point's block of the second operand is the whole of it. -/
theorem blk1_whole (c : Dev nD) (t : Fin cfg5.N) : iblk5 V c 1 t = rhs V c := by
  funext j
  show V c main_v77 (((cfg5.win 1).blk t).view.emb j) = V c main_v77 j
  refine congrArg (V c main_v77) ?_
  obtain ⟨-, -, e2, e3, -⟩ := idx_facts t
  funext a; apply Fin.ext
  match a with
  | ⟨0, _⟩ => show win5_1.index t (0 : Fin 2) * 1 + 1 * (j 0).val = (j 0).val; rw [e2]; omega
  | ⟨1, _⟩ => show win5_1.index t (1 : Fin 2) * 40 + 1 * (j 1).val = (j 1).val; rw [e3]; omega

/-- What point t writes back is block t of the whole product. -/
theorem flushed_eq (c : Dev nD) (t : Fin cfg5.N) :
    (dat5 V c).flushed 2 t = ((cfg5.win 2).blk t).view.read (Elt Ideal) (G V c) := by
  have ht : t.val < 10 := t.isLt
  show (cfg5.win 2).cut (grid5.coords t) ((dat5 V c).after 2 t) = _
  rw [after5_2]
  unfold out5_2
  rw [View.canon_unit_zero hz]
  simp only [View.ld_unit_zero (S := S5000x40) hz, View.ld_unit_zero (S := S1x40) hz]
  funext j
  obtain ⟨p, q, rfl⟩ : ∃ (p : Fin 5000) (q : Fin 40), j = ix2 p q := ⟨j 0, j 1, eq_ix2 j⟩
  show k5_pay1 (iblk5 V c 0 t) (iblk5 V c 1 t) (ix2 p q) = G V c (((cfg5.win 2).blk t).view.emb (ix2 p q))
  have hemb : ((cfg5.win 2).blk t).view.emb (ix2 p q) = ix2 ⟨t.val * 5000 + p.val, by omega⟩ q := by
    obtain ⟨-, -, -, -, e4, e5⟩ := idx_facts t
    funext a; apply Fin.ext
    match a with
    | ⟨0, _⟩ => show win5_2.index t (0 : Fin 2) * 5000 + 1 * p.val = t.val * 5000 + p.val; rw [e4]; omega
    | ⟨1, _⟩ => show win5_2.index t (1 : Fin 2) * 40 + 1 * q.val = q.val; rw [e5]; omega
  rw [hemb]
  exact Cert.KernelIdeal.PayLsm.pay5_row (lhs V c) (rhs V c) (iblk5 V c 0 t) (iblk5 V c 1 t) t.val ht
    (fun p k => blk0_row V c t ht p k) (blk1_whole V c t) p q

/-- An index of the result array is in point t's block iff each coordinate is in the block's range on its axis. -/
theorem mem_blk (t : Fin cfg5.N) (i : S50000x40.Idx) :
    i ∈ ((cfg5.win 2).blk t).view.set ↔ ∀ a : Fin 2, win5_2.index t a * S5000x40.size a ≤ (i a).val ∧ (i a).val < win5_2.index t a * S5000x40.size a + S5000x40.size a := by
  show i ∈ ((View.whole main_v78).slice (win5_2.rect t)).set ↔ _
  rw [View.set_slice_whole, Rect.mem_set_unit]
  exact Iff.rfl

/-- Every index of the result array lies in the block of point (row / 5000), which is written back. -/
theorem cover (i : S50000x40.Idx) : ∃ t : Fin cfg5.N, (cfg5.win 2).flush t = true ∧ i ∈ ((cfg5.win 2).blk t).view.set := by
  have hi0 : (i 0).val < 50000 := (i 0).isLt
  have hi1 : (i 1).val < 40 := (i 1).isLt
  refine ⟨⟨(i 0).val / 5000, by show (i 0).val / 5000 < 10; omega⟩, flush5_2 _, ?_⟩
  rw [mem_blk]
  obtain ⟨-, -, -, -, e4, e5⟩ := idx_facts ⟨(i 0).val / 5000, by show (i 0).val / 5000 < 10; omega⟩
  intro a
  match a with
  | ⟨0, _⟩ =>
    show win5_2.index _ (0 : Fin 2) * 5000 ≤ (i 0).val ∧ (i 0).val < win5_2.index _ (0 : Fin 2) * 5000 + 5000
    rw [e4]; show (i 0).val / 5000 * 5000 ≤ (i 0).val ∧ (i 0).val < (i 0).val / 5000 * 5000 + 5000; omega
  | ⟨1, _⟩ =>
    show win5_2.index _ (1 : Fin 2) * 40 ≤ (i 1).val ∧ (i 1).val < win5_2.index _ (1 : Fin 2) * 40 + 40
    rw [e5]; omega

/-- THE RESULT ARRAY after the region: the whole product of the arrays as the region found them. -/
theorem final (c : Dev nD) : (dat5 V c).arrAt 2 cfg5.N = G V c :=
  (dat5 V c).arrAt_eq_of_cover 2 (G V c) (fun t _ => flushed_eq V c t) (fun i => cover i)

end Cert.KernelIdeal.Region5

end
-- ==== Proof.Chain.lean ====
/-
  The kernel program's result, boundary by boundary, against the reference's stages.

  @main alternates host stretches and tiled regions.  At each boundary the buffers that matter hold exactly what the
  reference's corresponding stage computes from the same arguments: the three edge arrays (source indices,
  destination indices, per-edge norm) after the first host stretches; after each product region the reference's product
  of the previous stage; after each aggregation stretch the reference's edge aggregation (the stretch's operations ARE
  the reference's, applied to equal operands); after each bias region the reference's bias and relu (for the last
  layer: bias and row-wise log-softmax).  The last boundary's result array is therefore the reference's result, as
  one function of the eight arguments.
-/
import proofs.«419310_j55920474193966_1_alg».proof.Proof.Gen.KernelIdeal.Frame
import proofs.«419310_j55920474193966_1_alg».proof.Proof.RefRead
import proofs.«419310_j55920474193966_1_alg».proof.Proof.RefStages
import proofs.«419310_j55920474193966_1_alg».proof.Proof.Stages
import proofs.«419310_j55920474193966_1_alg».proof.Proof.Agg
import proofs.«419310_j55920474193966_1_alg».proof.Proof.HostK
import proofs.«419310_j55920474193966_1_alg».proof.Proof.Keeps
import proofs.«419310_j55920474193966_1_alg».proof.Proof.Region0
import proofs.«419310_j55920474193966_1_alg».proof.Proof.Region1
import proofs.«419310_j55920474193966_1_alg».proof.Proof.Region2
import proofs.«419310_j55920474193966_1_alg».proof.Proof.Region3
import proofs.«419310_j55920474193966_1_alg».proof.Proof.Region4
import proofs.«419310_j55920474193966_1_alg».proof.Proof.Region5
import Idealize.ShloMosaic.Lib.StableHlo.Run
import Idealize.ShloMosaic.Lib.Pipeline.Value

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen Cert.KernelIdeal.Keeps Cert.KernelIdeal.HostK
open Cert.ReferenceIdeal.RefStages
open Cert.ReferenceIdeal.ReadP (val_main_v3 val_main_v6 val_main_v30 val_main_v31 val_main_v44 val_main_v45 val_main_v48
  val_main_v49 val_main_v62 val_main_v63 val_main_v66 val_main_v67 val_main_v80 val_main_v81 val_main_v84
  val_main_v45_apply val_main_v63_apply val_main_v81_apply idx_main_v45 idx_main_v63 idx_main_v81)

/-! ## A bias vector reshaped to one row is the bias broadcast along a new leading axis -/

theorem bias_row128 (b : FVec Ideal S128 .f32) :
    shapeCast S1x128 b shapeCasts_S128_S1x128 = val_main_v45 (F := Ideal) b := by
  funext j
  rw [val_main_v45_apply]
  refine (shapeCast_addUnit_apply ![128] b _ j).trans (congrArg b ?_)
  funext a; match a with | ⟨0, _⟩ => rfl

theorem bias_row128' (b : FVec Ideal S128 .f32) :
    shapeCast S1x128 b shapeCasts_S128_S1x128 = val_main_v63 (F := Ideal) b := by
  funext j
  rw [val_main_v63_apply]
  refine (shapeCast_addUnit_apply ![128] b _ j).trans (congrArg b ?_)
  funext a; match a with | ⟨0, _⟩ => rfl

theorem bias_row40 (b : FVec Ideal S40 .f32) :
    shapeCast S1x40 b shapeCasts_S40_S1x40 = val_main_v81 (F := Ideal) b := by
  funext j
  rw [val_main_v81_apply]
  refine (shapeCast_addUnit_apply ![40] b _ j).trans (congrArg b ?_)
  funext a; match a with | ⟨0, _⟩ => rfl

variable (m : (ℓ : Loc nD τ sig) → Buf (Elt Ideal) ℓ) (ρ : Dev nD → PrngReg) (c : Dev nD)

/-! ## The edge arrays at the first region's entry: the first host stretches are the reference's first operations -/

theorem W3_v3 : W3 m ρ c (Proc.devRef .tc main_v3) = val_main_v3 (F := Ideal) (m ((c : Thread nD τ).loc main_arg1)) :=
  edges_v3 (W0 m ρ c)

theorem W3_v6 : W3 m ρ c (Proc.devRef .tc main_v6) = val_main_v6 (F := Ideal) (m ((c : Thread nD τ).loc main_arg1)) :=
  edges_v6 (W0 m ρ c)

theorem W3_v30 : W3 m ρ c (Proc.devRef .tc main_v30) = val_main_v30 (F := Ideal) (m ((c : Thread nD τ).loc main_arg1)) :=
  edges_v30 (W0 m ρ c)

/-! ## First layer -/

/-- After region 0: the product of the features and the first weight. -/
theorem W4_v31 : W4 m ρ c (Proc.devRef .tc main_v31) = val_main_v31 (F := Ideal) (m ((c : Thread nD τ).loc main_arg0)) (m ((c : Thread nD τ).loc main_arg2)) := by
  refine (W4_arr m ρ c 2).trans ((Region0.final (V3 m ρ) c).trans ?_)
  show Cert.Stages.mm128 (F := Ideal) (W3 m ρ c (Proc.devRef .tc main_arg0)) (W3 m ρ c (Proc.devRef .tc main_arg2)) = _
  rw [W3_arg0, W3_arg2]
  exact (ref_v31 _ _).symm

/-- After the first aggregation stretch: the reference's aggregation of that product. -/
theorem W5_v44 : W5 m ρ c (Proc.devRef .tc main_v44) = val_main_v44 (F := Ideal) (m ((c : Thread nD τ).loc main_arg0)) (m ((c : Thread nD τ).loc main_arg1)) (m ((c : Thread nD τ).loc main_arg2)) := by
  refine (agg1_v44 (W4 m ρ c)).trans ?_
  rw [W4_v31, W4_v3, W4_v6, W4_v30, W3_v3, W3_v6, W3_v30]
  exact (ref_v44 _ _ _).symm

theorem W5_v45 : W5 m ρ c (Proc.devRef .tc main_v45) = val_main_v45 (F := Ideal) (m ((c : Thread nD τ).loc main_arg3)) := by
  refine (agg1_v45 (W4 m ρ c)).trans ?_
  rw [W4_arg3]
  exact bias_row128 _

/-- After region 1: bias and relu. -/
theorem W6_v46 : W6 m ρ c (Proc.devRef .tc main_v46) = val_main_v48 (F := Ideal) (m ((c : Thread nD τ).loc main_arg0)) (m ((c : Thread nD τ).loc main_arg1)) (m ((c : Thread nD τ).loc main_arg2)) (m ((c : Thread nD τ).loc main_arg3)) := by
  refine (W6_arr m ρ c 2).trans ((Region1.final (V5 m ρ) c).trans ?_)
  show Cert.Stages.biasRelu (F := Ideal) (W5 m ρ c (Proc.devRef .tc main_v44)) (W5 m ρ c (Proc.devRef .tc main_v45)) = _
  rw [W5_v44, W5_v45]
  exact (ref_v48 _ _ _ _).symm

/-! ## Second layer -/

theorem W7_v47 : W7 m ρ c (Proc.devRef .tc main_v47) = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W7_arr m ρ c 2).trans ((Region2.final (V6 m ρ) c).trans ?_)
  show Cert.Stages.mm128 (F := Ideal) (W6 m ρ c (Proc.devRef .tc main_v46)) (W6 m ρ c (Proc.devRef .tc main_arg4)) = _
  rw [W6_v46, W6_arg4]
  exact (ref_v49 _ _ _ _ _).symm

theorem W8_v60 : W8 m ρ c (Proc.devRef .tc main_v60) = val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (agg2_v60 (W7 m ρ c)).trans ?_
  rw [W7_v47, W7_v3, W7_v6, W7_v30, W3_v3, W3_v6, W3_v30]
  exact (ref_v62 _ _ _ _ _).symm

theorem W8_v61 : W8 m ρ c (Proc.devRef .tc main_v61) = val_main_v63 (F := Ideal) (m ((c : Thread nD τ).loc main_arg5)) := by
  refine (agg2_v61 (W7 m ρ c)).trans ?_
  rw [W7_arg5]
  exact bias_row128' _

theorem W9_v62 : W9 m ρ c (Proc.devRef .tc main_v62) = val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W9_arr m ρ c 2).trans ((Region3.final (V8 m ρ) c).trans ?_)
  show Cert.Stages.biasRelu (F := Ideal) (W8 m ρ c (Proc.devRef .tc main_v60)) (W8 m ρ c (Proc.devRef .tc main_v61)) = _
  rw [W8_v60, W8_v61]
  exact (ref_v66 _ _ _ _ _ _).symm

/-! ## Output layer -/

theorem W10_v63 : W10 m ρ c (Proc.devRef .tc main_v63) = val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W10_arr m ρ c 2).trans ((Region4.final (V9 m ρ) c).trans ?_)
  show Cert.Stages.mm40 (F := Ideal) (W9 m ρ c (Proc.devRef .tc main_v62)) (W9 m ρ c (Proc.devRef .tc main_arg6)) = _
  rw [W9_v62, W9_arg6]
  exact (ref_v67 _ _ _ _ _ _ _).symm

theorem W11_v76 : W11 m ρ c (Proc.devRef .tc main_v76) = val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (agg3_v76 (W10 m ρ c)).trans ?_
  rw [W10_v63, W10_v3, W10_v6, W10_v30, W3_v3, W3_v6, W3_v30]
  exact (ref_v80 _ _ _ _ _ _ _).symm

theorem W11_v77 : W11 m ρ c (Proc.devRef .tc main_v77) = val_main_v81 (F := Ideal) (m ((c : Thread nD τ).loc main_arg7)) := by
  refine (agg3_v77 (W10 m ρ c)).trans ?_
  rw [W10_arg7]
  exact bias_row40 _

/-- THE RESULT: after region 5 the result array holds the reference's result of the same arguments. -/
theorem W12_v78 : W12 m ρ c (Proc.devRef .tc main_v78) = val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W12_arr m ρ c 2).trans ((Region5.final (V11 m ρ) c).trans ?_)
  show Cert.Stages.biasLogSoftmax (F := Ideal) (W11 m ρ c (Proc.devRef .tc main_v76)) (W11 m ρ c (Proc.devRef .tc main_v77)) = _
  rw [W11_v76, W11_v77]
  exact (ref_v84 _ _ _ _ _ _ _ _).symm

end Cert.KernelIdeal.Chain

end
-- ==== Proof.lean ====
/-
  A three-layer graph convolution network over 50000 nodes and 850000 edges (the 800000 given ones and a self loop
  per node): per layer a dense product, an aggregation over the edges weighted by the symmetric degree
  normalisation, a bias, and relu (after the last layer: row-wise log-softmax).  The kernel program computes the
  three dense pieces of each layer in tiled regions of ten blocks of 5000 rows and keeps the edge bookkeeping and
  the gather / scatter-add on the host; the reference computes everything on the host.

  Over the extended reals the two programs compute one function of the eight arguments: a block product of rows of
  X against the whole weight, narrowed to bf16 and back (the identity) and summed into zero, is those rows of the
  whole product; bias-and-relu and the log-softmax are row-wise; the host operations between the regions are the
  reference's own operations on equal operands.  No law beyond the commutativity of the finite sums is used, so
  the precondition (finite inputs) is never opened.

  The frames of the two kernel programs are the generated several-regions frames; the reference's frame is its run
  (the line of host operations read piece by piece) with the result dropped; the idealization ledger is empty.
-/
import proofs.«419310_j55920474193966_1_alg».proof.Defs
import proofs.«419310_j55920474193966_1_alg».proof.Proof.Gen.Kernel
import proofs.«419310_j55920474193966_1_alg».proof.Proof.Gen.Kernel.Frame
import proofs.«419310_j55920474193966_1_alg».proof.Proof.Gen.KernelIdeal
import proofs.«419310_j55920474193966_1_alg».proof.Proof.Gen.KernelIdeal.Frame
import proofs.«419310_j55920474193966_1_alg».proof.Proof.Gen.ReferenceIdeal
import proofs.«419310_j55920474193966_1_alg».proof.Proof.Gen.Pre_finite_inputs
import proofs.«419310_j55920474193966_1_alg».proof.Proof.KernelRun
import proofs.«419310_j55920474193966_1_alg».proof.Proof.RefRunStages
import proofs.«419310_j55920474193966_1_alg».proof.Proof.Chain
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.RunH.run (F := Ideal) m ρ)

/-- The ideal pass rewrote nothing. -/
theorem preserves : Cert.preserves_Kernel_KernelIdeal := trivial

/-- Both programs end with the result array at the reference's last stage of the (agreeing) arguments. -/
theorem algebraic : Cert.algebraic_KernelIdeal_ReferenceIdeal := by
  intro m ρ m' ρ' _ hagree
  refine ⟨fun c => Cert.ReferenceIdeal.ReadP.val_main_v84 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Chain.W12_v78 m ρ c), (h c).2⟩)
      (Cert.KernelIdeal.GenP.run_result m ρ)
  · refine (θ_run Cert.ReferenceIdeal.defs _ _).mono (fun r h c => ⟨(h c).1.trans ?_, (h c).2⟩)
      (Cert.ReferenceIdeal.RunH.run (F := Ideal) m' ρ')
    rw [(hagree c).1, (hagree c).2.1, (hagree c).2.2.1, (hagree c).2.2.2.1,
      (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
